-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32000 : Shape := ⟨2, ![8192, 32000]⟩
abbrev S8192 : Shape := ⟨1, ![8192]⟩
abbrev S_ : Shape := ⟨0, ![]⟩

class Facts : Prop where
  bcast_S_S8192x32000 : S_.BroadcastsInDim S8192x32000 (![] : Fin 0 → Fin S8192x32000.rank)
  reducesTo_S8192x32000_S_d0_1 : S8192x32000.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x32000 .f32) (main_arg1 : IVec S8192 32) : IVec S_ 1 :=
  let main_v0 : FVec F S8192x32000 .f32 := Host.absf main_arg0
  let main_cst : FVec F S_ .f32 := constant S_ .f32 0x7F800000#32
  let main_v1 : FVec F S8192x32000 .f32 := broadcastInDim S8192x32000 ![] bcast_S_S8192x32000 main_cst
  let main_v2 : IVec S8192x32000 1 := cmpf .olt main_v0 main_v1
  let main_c : IVec S_ 1 := constantI S_ 1 1#1
  let main_v3 : IVec S_ 1 := (fun x v => Host.reduce IntOp.andi x v reducesTo_S8192x32000_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 32 := constantI S_ 32 32000#32
  let main_v6 : IVec S8192 32 := broadcastInDim S8192 ![] bcast_S_S8192 main_c_1
  let main_v7 : IVec S8192 1 := cmpi .slt main_arg1 main_v6
  let main_v8 : IVec S8192 1 := andi main_v5 main_v7
  let main_c_2 : IVec S_ 1 := constantI S_ 1 1#1
  let main_v9 : IVec S_ 1 := (fun x v => Host.reduce IntOp.andi x v reducesTo_S8192_S_d0 h_S_) main_v8 main_c_2
  let main_v10 : IVec S_ 1 := andi main_v3 main_v9
  main_v10
-- ==== Kernel.lean ====
abbrev S8192x32000 : Shape := ⟨2, ![8192, 32000]⟩
abbrev S8192 : Shape := ⟨1, ![8192]⟩
abbrev S8192x1 : Shape := ⟨2, ![8192, 1]⟩
abbrev S2x8x128 : Shape := ⟨3, ![2, 8, 128]⟩
abbrev S128x32000 : Shape := ⟨2, ![128, 32000]⟩
abbrev S128x1 : Shape := ⟨2, ![128, 1]⟩
abbrev S1x8x128 : Shape := ⟨3, ![1, 8, 128]⟩
abbrev S128x1280 : Shape := ⟨2, ![128, 1280]⟩
abbrev S128 : Shape := ⟨1, ![128]⟩
abbrev S1 : Shape := ⟨1, ![1]⟩
abbrev S1x1 : Shape := ⟨2, ![1, 1]⟩
abbrev S1x1x1 : Shape := ⟨3, ![1, 1, 1]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192x1, .i32⟩
  | .hbm, ⟨3, _⟩ => ⟨S2x8x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S128x32000, .f32⟩
  | .local _ .vmem, ⟨1, _⟩ => ⟨S128x32000, .f32⟩
  | .local _ .vmem, ⟨2, _⟩ => ⟨S128x1, .i32⟩
  | .local _ .vmem, ⟨3, _⟩ => ⟨S128x1, .i32⟩
  | .local _ .vmem, ⟨4, _⟩ => ⟨S1x8x128, .f32⟩
  | .local _ .vmem, ⟨5, _⟩ => ⟨S1x8x128, .f32⟩
  | _, _ => ⟨S8192x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_2 : BitVec 32 := 0#32
  let c25_i32 : BitVec 32 := 25#32
  let v6 : BitVec 32 := Scalar.addi c0_i32_2 c25_i32
  let c1_i32 : BitVec 32 := 1#32
  ⟨c0_i32_2, v6, c1_i32⟩
def k0_mult1 (k0_t1 : Fin k0_t1_loop.trips) : BitVec 32 :=
  let c0_i32_2 : BitVec 32 := 0#32
  let c1_i32 : BitVec 32 := 1#32
  let arg5 : BitVec 32 := Scf.iv c0_i32_2 c1_i32 k0_t1
  let c1280_i32 : BitVec 32 := 1280#32
  let v36 : BitVec 32 := Scalar.muli arg5 c1280_i32
  v36
def k0_off1 (k0_t1 : Fin k0_t1_loop.trips) : Fin 2 → Nat :=
  let c0_20 : Index := 0#32
  let c0_i32_2 : BitVec 32 := 0#32
  let c1_i32 : BitVec 32 := 1#32
  let arg5 : BitVec 32 := Scf.iv c0_i32_2 c1_i32 k0_t1
  let c1280_i32 : BitVec 32 := 1280#32
  let v36 : BitVec 32 := Scalar.muli arg5 c1280_i32
  let v37 : BitVec 32 := v36
  let v38 : Index := Scalar.indexCast v37
  ![0, v38.toNat]
@[reducible] def k0_t2_loop : Scf.Loop 32 :=
  let c0_i32_5 : BitVec 32 := 0#32
  let c25_i32_6 : BitVec 32 := 25#32
  let v9 : BitVec 32 := Scalar.addi c0_i32_5 c25_i32_6
  let c1_i32_7 : BitVec 32 := 1#32
  ⟨c0_i32_5, v9, c1_i32_7⟩
def k0_mult2 (k0_t2 : Fin k0_t2_loop.trips) : BitVec 32 :=
  let c0_i32_5 : BitVec 32 := 0#32
  let c1_i32_7 : BitVec 32 := 1#32
  let arg5 : BitVec 32 := Scf.iv c0_i32_5 c1_i32_7 k0_t2
  let c1280_i32 : BitVec 32 := 1280#32
  let v36 : BitVec 32 := Scalar.muli arg5 c1280_i32
  v36
def k0_off2 (k0_t2 : Fin k0_t2_loop.trips) : Fin 2 → Nat :=
  let c0_20 : Index := 0#32
  let c0_i32_5 : BitVec 32 := 0#32
  let c1_i32_7 : BitVec 32 := 1#32
  let arg5 : BitVec 32 := Scf.iv c0_i32_5 c1_i32_7 k0_t2
  let c1280_i32 : BitVec 32 := 1280#32
  let v36 : BitVec 32 := Scalar.muli arg5 c1280_i32
  let v37 : BitVec 32 := v36
  let v38 : Index := Scalar.indexCast v37
  ![0, v38.toNat]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8192_S8192x1 : S8192.ShapeCasts S8192x1
  inb_S1x8x128_S1x8x128_0_0_0 : ∀ a, (![0, 0, 0] : Fin 3 → Nat) a + S1x8x128.size a ≤ S1x8x128.size a
  h_S1x8x128 : 0 < S1x8x128.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  h_S128x1280 : 0 < S128x1280.numel
  reduces_S128x1280_S128 : S128x1280.Reduces [1] S128
  shapeCasts_S128_S128x1 : S128.ShapeCasts S128x1
  broadcasts_S128x1_S128x1280 : S128x1.Broadcasts S128x1280
  iota_S128x1280_d1_w32 : S128x1280.Iotas .tc 32 [1]
  reduces_S128x1_S1 : S128x1.Reduces [0] S1
  shapeCasts_S1_S1x1 : S1.ShapeCasts S1x1
  iota_S1x8x128_d1_w32 : S1x8x128.Iotas .tc 32 [1]
  iota_S1x8x128_d2_w32 : S1x8x128.Iotas .tc 32 [2]
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  shapeCasts_S1x8x128_S1x8x128 : S1x8x128.ShapeCasts S1x8x128
  reducesTo_S2x8x128_S_d0_1_2 : S2x8x128.ReducesTo [0, 1, 2] S_
  h_S_ : 0 < S_.numel
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x1280.size a ≤ S128x32000.size a
  k0_t2_ok : k0_t2_loop.OK
  k0_mult2_dvd : ∀ k0_t2 : Fin k0_t2_loop.trips, 128 ∣ (k0_mult2 k0_t2).toNat
  k0_off2_inb : ∀ k0_t2 : Fin k0_t2_loop.trips, ∀ a, (k0_off2 k0_t2) a + S128x1280.size a ≤ S128x32000.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32000.size a ≤ S8192x32000.size a
  hwx0_0 : ∀ i : grid0.Coords, EltTy.bits .f32 = 32 ∨ (Rect.block (s := S8192x32000) S128x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S8192x1.size a
  hwx0_1 : ∀ i : grid0.Coords, EltTy.bits .i32 = 32 ∨ (Rect.block (s := S8192x1) S128x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_arg0) S128x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x32000 : Shape := ⟨2, ![8192, 32000]⟩
abbrev S8192 : Shape := ⟨1, ![8192]⟩
abbrev S_ : Shape := ⟨0, ![]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S_, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x1, .f32⟩
  | .hbm, ⟨8, _⟩ => ⟨S8192x32000, .f32⟩
  | .hbm, ⟨9, _⟩ => ⟨S8192x32000, .f32⟩
  | .hbm, ⟨10, _⟩ => ⟨S8192x32000, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S8192x32000, .f32⟩
  | .hbm, ⟨16, _⟩ => ⟨S8192x32000, .f32⟩
  | .hbm, ⟨17, _⟩ => ⟨S8192x1, .i32⟩
  | .hbm, ⟨18, _⟩ => ⟨S_, .i32⟩
  | .hbm, ⟨19, _⟩ => ⟨S8192x1, .i32⟩
  | .hbm, ⟨20, _⟩ => ⟨S8192x1, .i1⟩
  | .hbm, ⟨21, _⟩ => ⟨S_, .i32⟩
  | .hbm, ⟨22, _⟩ => ⟨S8192x1, .i32⟩
  | .hbm, ⟨23, _⟩ => ⟨S8192x1, .i32⟩
  | .hbm, ⟨24, _⟩ => ⟨S8192x1, .i32⟩
  | .hbm, ⟨25, _⟩ => ⟨S8192x1x1, .i32⟩
  | .hbm, ⟨26, _⟩ => ⟨S1, .i32⟩
  | .hbm, ⟨27, _⟩ => ⟨S_, .i32⟩
  | .hbm, ⟨28, _⟩ => ⟨S8192x1x1, .i32⟩
  | .hbm, ⟨29, _⟩ => ⟨S8192x1x1, .i1⟩
  | .hbm, ⟨30, _⟩ => ⟨S1x1x1, .i32⟩
  | .hbm, ⟨31, _⟩ => ⟨S8192x1x1, .i32⟩
  | .hbm, ⟨32, _⟩ => ⟨S8192x1x1, .i1⟩
  | .hbm, ⟨33, _⟩ => ⟨S8192x1x1, .i1⟩
  | .hbm, ⟨34, _⟩ => ⟨S_, .i1⟩
  | .hbm, ⟨35, _⟩ => ⟨S8192x1, .i1⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S8192x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_cst : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_cst_0 : Ref sig .tc := ⟨.hbm, 47, rfl⟩
abbrev main_v9 : Ref sig .tc := ⟨.hbm, 48, rfl⟩
abbrev main_cst_1 : Ref sig .tc := ⟨.hbm, 49, rfl⟩
abbrev main_v10 : Ref sig .tc := ⟨.hbm, 50, rfl⟩
abbrev main_v11 : Ref sig .tc := ⟨.hbm, 51, rfl⟩

abbrev nD : Nat := 1
abbrev τ : Topo := Topo.v7x

variable {F : FTy → Type} [FloatOps F]

class Facts₀ : Prop where
  reducesTo_S8192x32000_S8192_d1 : S8192x32000.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32000_0_1 : S8192x1.BroadcastsInDim S8192x32000 (![0, 1] : Fin 2 → Fin S8192x32000.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  gather_S8192x32000_S8192x1x1_S8192x1_n_1_0_0_1_2_11_wf : GatherDims.WF S8192x32000 S8192x1x1 S8192x1 [] [1] [0] [1] [0] 2 ![1, 1]

variable [Facts₀]

def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf

class Facts : Prop extends Facts₀ where

variable [Facts]
-- ==== Proof.Spec.lean ====
/-
  The focal loss of a batch of rows, as ONE function of the logits and the labels over the extended reals.

  For a row x of 32000 logits and a label column l:
    rowMax x    the largest logit of the row,
    rowSumExp x the sum over the row of exp (x k - rowMax x),
    logp x l    (x l - rowMax x) - log (rowSumExp x): the log-softmax of the row at the label,
    term x l    (1 - exp (logp x l))² · logp x l.
  The loss is minus the sum of the rows' terms divided by the number of rows, 8192.
-/
import Idealize.ShloMosaic.PureOps.Ideal
import Idealize.ShloMosaic.Lib.ValueIdx

noncomputable section

open scoped BigOperators

namespace Cert.Focal

open Idealize.ShloMosaic Idealize.ShloMosaic.ValueIdx

/-- The logits: 8192 rows of 32000. -/
abbrev SX : Shape := ⟨2, ![8192, 32000]⟩
/-- The labels: one 32-bit word per row. -/
abbrev SL : Shape := ⟨1, ![8192]⟩
/-- The result: a scalar. -/
abbrev S0 : Shape := ⟨0, ![]⟩

/-- A label word as a column number (a word that is no column number reads as its residue; the precondition keeps
    every label a column number). -/
def col (w : BitVec 32) : Fin 32000 := ⟨w.toNat % 32000, Nat.mod_lt _ (by decide)⟩

/-- The largest entry of a row (the bottom element for no entry). -/
def rowMax (x : Fin 32000 → EReal) : EReal := Finset.univ.sup x

/-- The sum over the row of the exponentials of the entries less the row's largest. -/
def rowSumExp (x : Fin 32000 → EReal) : EReal := ∑ k, Ideal.exp (x k - rowMax x)

/-- The row's log-softmax at column `l`. -/
def logp (x : Fin 32000 → EReal) (l : Fin 32000) : EReal := (x l - rowMax x) - Ideal.log (rowSumExp x)

/-- The number one, as the f32 word both programs carry. -/
def one : EReal := Ideal.ofBits .f32 0x3F800000#32

/-- (1 - exp lp)² · lp. -/
def focal (lp : EReal) : EReal := ((one - Ideal.exp lp) * (one - Ideal.exp lp)) * lp

/-- A row's term of the loss. -/
def term (x : Fin 32000 → EReal) (l : Fin 32000) : EReal := focal (logp x l)

/-- Row `R` of the logits. -/
def row (X : SX.Idx → EReal) (R : Fin 8192) : Fin 32000 → EReal := fun k => X (ix2 R k)

/-- The sum of the rows' terms. -/
def total (X : SX.Idx → EReal) (L : SL.Idx → BitVec 32) : EReal :=
  ∑ R : Fin 8192, term (row X R) (col (L (ix1 R)))

/-- THE LOSS: minus the sum of the rows' terms over 8192 (the divisor as the f32 word both programs carry). -/
def loss (X : SX.Idx → EReal) (L : SL.Idx → BitVec 32) : S0.Idx → EReal :=
  fun _ => -(Ideal.div (total X L) (Ideal.ofBits .f32 0x46000000#32))

end Cert.Focal

end
-- ==== Proof.LibKeepdims.lean ====
/-
  Reductions that keep their axis, read at an index given by coordinates.

  A sum over one axis of a matrix that keeps the axis (`jnp.sum(…, keepdims=True)`) is a lane sum to a vector, a shape
  cast of the vector to a column `[a] → [a, 1]` or to a row `[a] → [1, a]`, and a broadcast of the column
  `[a, 1] → [a, b]` or of the row back over the matrix. Here: the column cast and the column broadcast at `(i, j)`, and
  an f32 lane sum over the columns (axis 1) or over the rows (axis 0) of a matrix at the extended reals as a
  `Fin`-indexed sum of the matrix entries.
-/
import Idealize.ShloMosaic.Lib.ValueLayout
import Idealize.ShloMosaic.PureOps.Ideal.Laws

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the COLUMNS of an `[a, b]` matrix of extended reals is, in row `r`, the sum of that row. -/
theorem multiReduction_add_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ c : Fin b, src (ix2 r c) :=
  (Ideal.multiReduction_add_single src 0x00000000#32 h hφ hacc (ix1 r)).trans
    (Finset.sum_congr rfl fun c _ => congrArg src (funext fun ax => Fin.ext (by
      match ax with
      | ⟨0, _⟩ => rfl
      | ⟨1, _⟩ => rfl)))

/-- An f32 lane sum over the ROWS of an `[a, b]` matrix of extended reals is, in column `j`, the sum of that column. -/
theorem multiReduction_add_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ c : Fin a, src (ix2 c j) :=
  (Ideal.multiReduction_add_single src 0x00000000#32 h hφ hacc (ix1 j)).trans
    (Finset.sum_congr rfl fun c _ => congrArg src (funext fun ax => Fin.ext (by
      match ax with
      | ⟨0, _⟩ => rfl
      | ⟨1, _⟩ => rfl)))

end Idealize.ShloMosaic.ValueIdx
-- ==== Proof.PayMath.lean ====
/-
  The body's arithmetic, read at an index over the extended reals.

  One trip of the first loop joins a chunk's row maxima into the running row maximum; one trip of the second adds, per row,
  the chunk's sum of exponentials of the shifted logits, and the chunk's one-hot-selected shifted logit (the lane whose
  column number is the row's label); after the loops the rows' terms are summed and added into lane (0, 0, 0) of the tile.
-/
import proofs.«402658_j15461882265978_3_alg».proof.Proof.Gen.KernelIdeal.Skeleton
import proofs.«402658_j15461882265978_3_alg».proof.Proof.Spec
import proofs.«402658_j15461882265978_3_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayMath

open Cert.KernelIdeal Cert.KernelIdeal.Gen
open Idealize.ShloMosaic Idealize.ShloMosaic.ValueIdx

/-- The f32 word of minus infinity denotes the bottom element. -/
private theorem ofBits_neg_inf_f32 : Ideal.ofBits .f32 0xFF800000#32 = ⊥ := by
  simp [Ideal.ofBits, Ideal.ieee]

/-- The zero tile. -/
theorem pay1_apply (y : S1x8x128.Idx) : k0_pay1 (F := Ideal) y = 0 := by
  show Ideal.ofBits .f32 0x00000000#32 = 0
  exact Ideal.ofBits_zero_f32

/-- The running maximum starts at the bottom element. -/
theorem pay2_apply (y : S128x1.Idx) : k0_pay2 (F := Ideal) y = ⊥ := by
  show Ideal.ofBits .f32 0xFF800000#32 = ⊥
  exact ofBits_neg_inf_f32

/-- The running sums start at zero. -/
theorem pay4_apply (y : S128x1.Idx) : k0_pay4 (F := Ideal) y = 0 := by
  show Ideal.ofBits .f32 0x00000000#32 = 0
  exact Ideal.ofBits_zero_f32

/-- The index a lane reduction over the columns inserts: row `r`, column `j`. -/
private theorem lift_cols (r : Fin 128) (j : Fin 1280) :
    reduces_S128x1280_S128.lift (ix1 r) j = ix2 r j :=
  funext fun ax => Fin.ext (by
    match ax with
    | ⟨0, _⟩ => rfl
    | ⟨1, _⟩ => rfl)

/-- One trip of the first loop: row `r`'s running maximum joined with the largest entry of the chunk's row `r`. -/
theorem pay3_apply (acc : FVec Ideal S128x1 .f32) (v : Vec Ideal S128x1280 .f32) (r : Fin 128) (u : Fin 1) :
    k0_pay3 (F := Ideal) acc v (ix2 r u) = max (acc (ix2 r u)) (Finset.univ.sup fun j : Fin 1280 => v (ix2 r j)) := by
  unfold k0_pay3
  rw [maximumf_apply]
  refine congrArg (max (acc (ix2 r u))) ?_
  refine (shapeCast_a_a1_apply _ _ r u).trans ?_
  refine (Ideal.multiReduction_maximumf_single v _ _ _ _ (ix1 r)).trans ?_
  show Finset.fold max (Ideal.ofBits .f32 0xFF800000#32)
      (fun j : Fin 1280 => v (reduces_S128x1280_S128.lift (ix1 r) j)) Finset.univ = _
  rw [ofBits_neg_inf_f32]
  simp only [lift_cols]
  rfl

/-- The shifted logits: the chunk's entry less the row's maximum. -/
private theorem pay5_apply (v7 : FVec Ideal S128x1 .f32) (v : Vec Ideal S128x1280 .f32) (r : Fin 128) (c : Fin 1280) :
    k0_pay5 (F := Ideal) v7 v (ix2 r c) = v (ix2 r c) - v7 (ix2 r (0 : Fin 1)) := by
  unfold k0_pay5
  rw [subf_apply]
  refine congrArg (v (ix2 r c) - ·) ?_
  exact broadcastTo_a1_ab_apply v7 _ r c

/-- One trip of the second loop, first component: row `r`'s running sum plus the chunk's sum of exp (entry - the row's maximum). -/
theorem pay6_apply (v7 acc : FVec Ideal S128x1 .f32) (v : Vec Ideal S128x1280 .f32) (r : Fin 128) (u : Fin 1) :
    k0_pay6 (F := Ideal) v7 acc v (ix2 r u)
      = acc (ix2 r u) + ∑ j : Fin 1280, Ideal.exp (v (ix2 r j) - v7 (ix2 r (0 : Fin 1))) := by
  unfold k0_pay6
  rw [addf_apply]
  refine congrArg (acc (ix2 r u) + ·) ?_
  refine (shapeCast_a_a1_apply _ _ r u).trans ?_
  refine (multiReduction_add_cols_apply _ _ _ _ r).trans ?_
  refine Finset.sum_congr rfl fun j _ => ?_
  show Ideal.exp (k0_pay5 (F := Ideal) v7 v (ix2 r j)) = _
  rw [pay5_apply]

/-- The column number of a lane: the lane iota over axis 1 reads the column coordinate. -/
private theorem iota_cols_apply (r : Fin 128) (j : Fin 1280) :
    iota .tc S128x1280 32 [1] iota_S128x1280_d1_w32 (ix2 r j) = BitVec.ofNat 32 j.val := by
  show BitVec.ofNat 32 (0 * 1280 + j.val) = _
  rw [Nat.zero_mul, Nat.zero_add]

/-- Lane `j` of chunk `k` carries the word of the column number `1280 k + j`. -/
private theorem lane_word (k j : Nat) (hk : k < 25) (hj : j < 1280) :
    IntOp.addi (BitVec.ofNat 32 j) (Scalar.muli (Scf.iv 0#32 1#32 k) 1280#32) = BitVec.ofNat 32 (1280 * k + j) := by
  apply BitVec.eq_of_toNat_eq
  simp only [IntOp.addi, Scalar.muli, IntOp.muli, Scf.iv, BitVec.toNat_add, BitVec.toNat_mul, BitVec.toNat_ofNat]
  omega

/-- A word below 2^32 equals a 32-bit word exactly when it is the word's number. -/
private theorem ofNat_eq_iff (n : Nat) (hn : n < 2 ^ 32) (w : BitVec 32) : BitVec.ofNat 32 n = w ↔ n = w.toNat := by
  constructor
  · intro h
    rw [← h, BitVec.toNat_ofNat, Nat.mod_eq_of_lt hn]
  · intro h
    apply BitVec.eq_of_toNat_eq
    rw [BitVec.toNat_ofNat, h, Nat.mod_eq_of_lt w.isLt]

/-- A select on the equality of two words is the `if` on it. -/
private theorem select_cmpi_eq {α : Type} (x w : BitVec 32) (a b : α) :
    Scalar.select (IntOp.cmpi .eq x w) a b = if x = w then a else b := by
  show (if BitVec.ofBool (x == w) = 1#1 then a else b) = if x = w then a else b
  by_cases h : x = w
  · subst h
    rw [beq_self_eq_true, if_pos (rfl : x = x)]
    exact if_pos rfl
  · have hb : (x == w) = false := beq_eq_false_iff_ne.mpr h
    rw [hb, if_neg h]
    exact if_neg (by decide)

/-- One trip of the second loop, second component: row `r`'s running selected logit plus, over the chunk's lanes, the shifted
    entry of the lane whose column number `1280 k + j` is the row's label, zero for the other lanes. -/
theorem pay7_apply (v3 : Vec Ideal S128x1 .i32) (v7 : FVec Ideal S128x1 .f32) (k : Fin k0_t2_loop.trips)
    (acc : FVec Ideal S128x1 .f32) (v : Vec Ideal S128x1280 .f32) (r : Fin 128) (u : Fin 1) :
    k0_pay7 (F := Ideal) v3 v7 k acc v (ix2 r u)
      = acc (ix2 r u) + ∑ j : Fin 1280,
          if 1280 * k.val + j.val = (v3 (ix2 r (0 : Fin 1))).toNat then v (ix2 r j) - v7 (ix2 r (0 : Fin 1)) else 0 := by
  have hk : k.val < 25 := Nat.lt_of_lt_of_le k.isLt k0_t2_abs.2.1
  unfold k0_pay7
  rw [addf_apply]
  refine congrArg (acc (ix2 r u) + ·) ?_
  refine (shapeCast_a_a1_apply _ _ r u).trans ?_
  refine (multiReduction_add_cols_apply _ _ _ _ r).trans ?_
  refine Finset.sum_congr rfl fun j _ => ?_
  show Scalar.select (IntOp.cmpi .eq
        (IntOp.addi (iota .tc S128x1280 32 [1] iota_S128x1280_d1_w32 (ix2 r j)) (Scalar.muli (Scf.iv 0#32 1#32 k.val) 1280#32))
        (broadcastTo S128x1280 (shapeCast S128x1 v3 shapeCasts_S128x1_S128x1) broadcasts_S128x1_S128x1280 (ix2 r j)))
      (k0_pay5 (F := Ideal) v7 v (ix2 r j)) (Ideal.ofBits .f32 0x00000000#32) = _
  rw [iota_cols_apply, broadcastTo_a1_ab_apply,
    shapeCast_apply v3 shapeCasts_S128x1_S128x1 (ix2 r (0 : Fin 1)) (ix2 r (0 : Fin 1)) rfl,
    lane_word k.val j.val hk j.isLt, select_cmpi_eq, pay5_apply, Ideal.ofBits_zero_f32]
  refine if_congr (ofNat_eq_iff _ ?_ _) rfl rfl
  have := j.isLt
  omega

/-- The sublane number of a tile lane: the iota over axis 1 reads the second coordinate. -/
private theorem iota_sub_apply (p : Fin 1) (a : Fin 8) (b : Fin 128) :
    iota .tc S1x8x128 32 [1] iota_S1x8x128_d1_w32 (ix3 p a b) = BitVec.ofNat 32 a.val := by
  show BitVec.ofNat 32 (0 * 8 + a.val) = _
  rw [Nat.zero_mul, Nat.zero_add]

/-- The lane number of a tile lane: the iota over axis 2 reads the third coordinate. -/
private theorem iota_lane_apply (p : Fin 1) (a : Fin 8) (b : Fin 128) :
    iota .tc S1x8x128 32 [2] iota_S1x8x128_d2_w32 (ix3 p a b) = BitVec.ofNat 32 b.val := by
  show BitVec.ofNat 32 (0 * 128 + b.val) = _
  rw [Nat.zero_mul, Nat.zero_add]

/-- The comparison of a small number's word with the zero word is the bit of "the number is zero". -/
private theorem cmpi_eq_ofNat_zero (n : Nat) (hn : n < 2 ^ 32) :
    IntOp.cmpi .eq (BitVec.ofNat 32 n) 0#32 = if n = 0 then 1#1 else 0#1 := by
  show BitVec.ofBool (BitVec.ofNat 32 n == 0#32) = _
  by_cases h : n = 0
  · subst h
    rfl
  · have hne : BitVec.ofNat 32 n ≠ 0#32 := fun h' => h ((ofNat_eq_iff n hn 0#32).mp h')
    rw [if_neg h, beq_eq_false_iff_ne.mpr hne]
    rfl

/-- A select on "both numbers are zero", each bit the comparison of the number's word with the zero word. -/
private theorem select_and_eq0 {α : Type} (a b : Nat) (ha : a < 8) (hb : b < 128) (A B : α) :
    Scalar.select (IntOp.andi (IntOp.cmpi .eq (BitVec.ofNat 32 a) 0#32) (IntOp.cmpi .eq (BitVec.ofNat 32 b) 0#32)) A B
      = if a = 0 ∧ b = 0 then A else B := by
  rw [cmpi_eq_ofNat_zero a (by omega), cmpi_eq_ofNat_zero b (by omega)]
  by_cases ha0 : a = 0
  · by_cases hb0 : b = 0
    · rw [if_pos ha0, if_pos hb0, if_pos (⟨ha0, hb0⟩ : a = 0 ∧ b = 0)]
      exact if_pos (by decide)
    · rw [if_pos ha0, if_neg hb0, if_neg (fun h : a = 0 ∧ b = 0 => hb0 h.2)]
      exact if_neg (by decide)
  · rw [if_neg ha0, if_neg (fun h : a = 0 ∧ b = 0 => ha0 h.1)]
    by_cases hb0 : b = 0
    · rw [if_pos hb0]
      exact if_neg (by decide)
    · rw [if_neg hb0]
      exact if_neg (by decide)

/-- After the loops: the tile's lane (0, 0, 0) gains the sum over the 128 rows of the focal term of
    (selected logit - log (sum of exponentials)); the other lanes gain zero. -/
theorem pay8_apply (s e : FVec Ideal S128x1 .f32) (xo : Vec Ideal S1x8x128 .f32) (y : S1x8x128.Idx) :
    k0_pay8 (F := Ideal) s e xo y
      = xo y + if (y 1).val = 0 ∧ (y 2).val = 0 then
          ∑ r : Fin 128, Cert.Focal.focal (e (ix2 r (0 : Fin 1)) - Ideal.log (s (ix2 r (0 : Fin 1)))) else 0 := by
  obtain ⟨p, a, b, rfl⟩ : ∃ (p : Fin 1) (a : Fin 8) (b : Fin 128), y = ix3 p a b := ⟨y 0, y 1, y 2, eq_ix3 y⟩
  unfold k0_pay8
  rw [addf_apply]
  refine congrArg₂ (· + ·) (shapeCast_apply xo shapeCasts_S1x8x128_S1x8x128 (ix3 p a b) (ix3 p a b) rfl) ?_
  show Scalar.select (IntOp.andi
        (IntOp.cmpi .eq (iota .tc S1x8x128 32 [1] iota_S1x8x128_d1_w32 (ix3 p a b)) 0#32)
        (IntOp.cmpi .eq (iota .tc S1x8x128 32 [2] iota_S1x8x128_d2_w32 (ix3 p a b)) 0#32))
      (broadcastTo S1x8x128
          (shapeCast S1x1x1
            (shapeCast S1x1x1
              (shapeCast S1x1
                (multiReduction (F := Ideal) FKind.add [0] S1
                  (mulf
                    (mulf (subf (broadcast S128x1 (FloatOps.ofBits FTy.f32 0x3F800000#32)) (exp (subf e (log s))))
                      (subf (broadcast S128x1 (FloatOps.ofBits FTy.f32 0x3F800000#32)) (exp (subf e (log s)))))
                    (subf e (log s)))
                  (0x00000000#32) reduces_S128x1_S1 (.inl rfl) rfl)
                shapeCasts_S1_S1x1)
              shapeCasts_S1x1_S1x1x1)
            shapeCasts_S1x1x1_S1x1x1)
          broadcasts_S1x1x1_S1x8x128 (ix3 p a b))
      (Ideal.ofBits .f32 0x00000000#32)
    = if a.val = 0 ∧ b.val = 0 then ∑ r, Cert.Focal.focal (e (ix2 r (0 : Fin 1)) - Ideal.log (s (ix2 r (0 : Fin 1)))) else 0
  rw [iota_sub_apply, iota_lane_apply, select_and_eq0 a.val b.val a.isLt b.isLt, Ideal.ofBits_zero_f32]
  refine if_congr Iff.rfl ?_ rfl
  refine (broadcastTo_apply _ broadcasts_S1x1x1_S1x8x128 (ix3 p a b)
    (ix3 (0 : Fin 1) (0 : Fin 1) (0 : Fin 1)) fun ax => ?_).trans ?_
  · match ax with
    | ⟨0, _⟩ => rfl
    | ⟨1, _⟩ => rfl
    | ⟨2, _⟩ => rfl
  refine (shapeCast_apply _ shapeCasts_S1x1x1_S1x1x1 (ix3 (0 : Fin 1) (0 : Fin 1) (0 : Fin 1))
    (ix3 (0 : Fin 1) (0 : Fin 1) (0 : Fin 1)) rfl).trans ?_
  refine (shapeCast_apply _ shapeCasts_S1x1_S1x1x1 (ix3 (0 : Fin 1) (0 : Fin 1) (0 : Fin 1))
    (ix2 (0 : Fin 1) (0 : Fin 1)) rfl).trans ?_
  refine (shapeCast_a_a1_apply _ shapeCasts_S1_S1x1 (0 : Fin 1) (0 : Fin 1)).trans ?_
  refine (multiReduction_add_rows_apply _ reduces_S128x1_S1 _ _ (0 : Fin 1)).trans ?_
  refine Finset.sum_congr rfl fun r _ => ?_
  rfl

end Cert.KernelIdeal.PayMath

end
-- ==== Proof.LibBlockSum.lean ====
/-
  Three general facts: a sum over B·R indices taken block by block, a 32-bit word read as a small natural number, and an
  indicator times an extended real.
-/
import Mathlib.Logic.Equiv.Fin.Basic
import Mathlib.Data.Fintype.BigOperators
import Mathlib.Algebra.BigOperators.Group.Finset.Defs
import Mathlib.Data.EReal.Operations

noncomputable section

open scoped BigOperators

namespace Cert.LibBlockSum

/-! ## A sum over B·R indices, block by block -/

/-- Entry `r` of block `t`, among `N = B * R` indices cut into `B` consecutive blocks of `R`: the index `R * t + r`. -/
def blockIdx {B R N : Nat} (h : B * R = N) (t : Fin B) (r : Fin R) : Fin N :=
  ⟨R * t.val + r.val, by
    have ht := t.isLt
    have hr := r.isLt
    calc R * t.val + r.val < R * t.val + R := by omega
      _ = R * (t.val + 1) := by rw [Nat.mul_succ]
      _ ≤ R * B := Nat.mul_le_mul_left _ ht
      _ = N := by rw [Nat.mul_comm]; exact h⟩

/-- Its value is `R * t + r`. -/
theorem blockIdx_val {B R N : Nat} (h : B * R = N) (t : Fin B) (r : Fin R) :
    (blockIdx h t r).val = R * t.val + r.val := rfl

/-- A sum over `N = B * R` indices is the sum over the `B` blocks of the sum over each block's `R` entries. -/
theorem sum_blocks {M : Type*} [AddCommMonoid M] {B R N : Nat} (h : B * R = N) (f : Fin N → M) :
    ∑ n : Fin N, f n = ∑ t : Fin B, ∑ r : Fin R, f (blockIdx h t r) := by
  subst h
  rw [← Equiv.sum_comp (finProdFinEquiv (m := B) (n := R)) f, Fintype.sum_prod_type]
  refine Finset.sum_congr rfl fun t _ => Finset.sum_congr rfl fun r _ => congrArg f (Fin.ext ?_)
  show r.val + R * t.val = R * t.val + r.val
  exact Nat.add_comm _ _

/-! ## A 32-bit word that is a small natural number -/

/-- A 32-bit word is the word of a natural number `g` below `2 ^ 31` exactly when, read as a signed integer, it is `g`. -/
theorem eq_ofNat_iff_toInt_eq (b : BitVec 32) (g : Nat) (hg : g < 2 ^ 31) :
    b = BitVec.ofNat 32 g ↔ b.toInt = (g : Int) := by
  have e : (BitVec.ofNat 32 g).toInt = (g : Int) := by
    rw [BitVec.toInt_eq_toNat_of_lt (by rw [BitVec.toNat_ofNat]; omega), BitVec.toNat_ofNat]
    omega
  rw [← e]
  exact BitVec.toInt_inj.symm

/-! ## An indicator times an extended real -/

/-- One or zero, by a condition, times an extended real is the real or zero, by the condition. -/
theorem ite_one_zero_mul (p : Prop) [Decidable p] (x : EReal) :
    (if p then (1 : EReal) else 0) * x = if p then x else 0 := by
  split
  · exact one_mul x
  · exact zero_mul x

/-- The example: 100000 indices as 20 blocks of 5000 (name the two factors: the product alone does not determine them). -/
example {M : Type*} [AddCommMonoid M] (f : Fin 100000 → M) :
    ∑ n : Fin 100000, f n = ∑ t : Fin 20, ∑ r : Fin 5000, f (blockIdx (B := 20) (R := 5000) (N := 100000) (by norm_num) t r) :=
  sum_blocks (B := 20) (R := 5000) (by norm_num) f

end Cert.LibBlockSum

end
-- ==== Proof.Algebra.lean ====
/-
  Extended-real facts the two programs' spellings of the loss differ by: a recursion that joins (or adds) one chunk per
  step ends at the join (the sum) over all chunks; the largest of the chunks' largest entries is the row's largest entry;
  a one-hot sum is the entry at the hot column; minus a sum over 8192 is minus (the sum over 8192); and the f32 words of
  minus infinity, zero and 8192.
-/
import proofs.«402658_j15461882265978_3_alg».proof.Proof.Spec
import proofs.«402658_j15461882265978_3_alg».proof.Proof.LibBlockSum
import Idealize.ShloMosaic.PureOps.Ideal.Laws
import Mathlib.Algebra.BigOperators.Fin
import Mathlib.Order.Fin.Basic

noncomputable section

open scoped BigOperators

namespace Cert.FocalAlg

open Idealize.ShloMosaic Cert.LibBlockSum

/-- A recursion that adds one block's amount per step, from `z`, ends at `z` plus the sum over the blocks. -/
theorem rec_sum {M : Type} [AddCommMonoid M] (B : ℕ) (g : Fin B → M) (a : ℕ → M) (z : M) (h0 : a 0 = z)
    (hs : ∀ k : Fin B, a (k.val + 1) = a k.val + g k) : a B = z + ∑ k, g k := by
  induction B with
  | zero => simp [h0]
  | succ n ih =>
    -- the last step adds the last block's amount to what the first n steps reached
    have h1 : a (n + 1) = a n + g (Fin.last n) := hs (Fin.last n)
    have h2 : a n = z + ∑ k : Fin n, g k.castSucc := ih (fun k => g k.castSucc) (fun k => hs k.castSucc)
    rw [h1, h2, Fin.sum_univ_castSucc, add_assoc]

/-- The largest over `n + 1` amounts is the larger of the largest over the first `n` and the last one. -/
private theorem sup_univ_castSucc (n : ℕ) (g : Fin (n + 1) → EReal) :
    Finset.univ.sup g = max (Finset.univ.sup fun k : Fin n => g k.castSucc) (g (Fin.last n)) := by
  apply le_antisymm
  · refine Finset.sup_le fun k _ => ?_
    induction k using Fin.lastCases with
    | last => exact le_max_right _ _
    | cast i => exact le_max_of_le_left (Finset.le_sup (f := fun k : Fin n => g k.castSucc) (Finset.mem_univ i))
  · exact max_le (Finset.sup_le fun i _ => Finset.le_sup (f := g) (Finset.mem_univ _))
      (Finset.le_sup (f := g) (Finset.mem_univ _))

/-- A recursion that joins one block's amount per step, from `z`, ends at `z` joined with the largest of the blocks' amounts. -/
theorem rec_sup (B : ℕ) (g : Fin B → EReal) (a : ℕ → EReal) (z : EReal) (h0 : a 0 = z)
    (hs : ∀ k : Fin B, a (k.val + 1) = max (a k.val) (g k)) : a B = max z (Finset.univ.sup g) := by
  induction B with
  | zero => simp [h0]
  | succ n ih =>
    have h1 : a (n + 1) = max (a n) (g (Fin.last n)) := hs (Fin.last n)
    have h2 : a n = max z (Finset.univ.sup fun k : Fin n => g k.castSucc) :=
      ih (fun k => g k.castSucc) (fun k => hs k.castSucc)
    rw [h1, h2, sup_univ_castSucc, max_assoc]

/-- The largest over 25 chunks of a chunk's largest entry is the row's largest entry. -/
theorem sup_chunks (x : Fin 32000 → EReal) :
    (Finset.univ.sup fun t : Fin 25 => Finset.univ.sup fun j : Fin 1280 =>
        x (blockIdx (B := 25) (R := 1280) (N := 32000) (by norm_num) t j)) = Finset.univ.sup x := by
  apply le_antisymm
  · -- every chunk entry is a row entry
    exact Finset.sup_le fun t _ => Finset.sup_le fun j _ => Finset.le_sup (f := x) (Finset.mem_univ _)
  · -- every row entry c is entry c % 1280 of chunk c / 1280
    refine Finset.sup_le fun c _ => ?_
    have hc := c.isLt
    let t : Fin 25 := ⟨c.val / 1280, by omega⟩
    let j : Fin 1280 := ⟨c.val % 1280, by omega⟩
    have e : c = blockIdx (B := 25) (R := 1280) (N := 32000) (by norm_num) t j := by
      apply Fin.ext
      rw [blockIdx_val]
      show c.val = 1280 * (c.val / 1280) + c.val % 1280
      omega
    calc x c = x (blockIdx (B := 25) (R := 1280) (N := 32000) (by norm_num) t j) := congrArg x e
      _ ≤ Finset.univ.sup fun j : Fin 1280 => x (blockIdx (B := 25) (R := 1280) (N := 32000) (by norm_num) t j) :=
          Finset.le_sup (f := fun j : Fin 1280 => x (blockIdx (B := 25) (R := 1280) (N := 32000) (by norm_num) t j))
            (Finset.mem_univ j)
      _ ≤ _ := Finset.le_sup (f := fun t : Fin 25 => Finset.univ.sup fun j : Fin 1280 =>
            x (blockIdx (B := 25) (R := 1280) (N := 32000) (by norm_num) t j)) (Finset.mem_univ t)

/-- A sum that takes the entry at the one column whose number is `n`, and zero elsewhere, is that entry. -/
theorem sum_onehot (x : Fin 32000 → EReal) (n : ℕ) (hn : n < 32000) :
    (∑ c : Fin 32000, if c.val = n then x c else 0) = x ⟨n, hn⟩ := by
  rw [Finset.sum_eq_single (⟨n, hn⟩ : Fin 32000)]
  · exact if_pos rfl
  · intro c _ hc
    exact if_neg fun h => hc (Fin.ext h)
  · intro h
    exact absurd (Finset.mem_univ _) h

/-- The f32 word of minus infinity is the bottom element. -/
theorem ofBits_neg_inf : Ideal.ofBits .f32 0xFF800000#32 = (⊥ : EReal) := by
  simp [Ideal.ofBits, Ideal.ieee]

/-- The f32 word of 8192 is the real number 8192. -/
theorem ofBits_8192 : Ideal.ofBits .f32 0x46000000#32 = ((8192 : ℝ) : EReal) := by
  simp [Ideal.ofBits, Ideal.ieee, -EReal.coe_mul]; norm_num

/-- Dividing the negated sum by 8192 is negating the sum divided by 8192. -/
theorem div_neg_8192 (s : EReal) :
    Ideal.div (-s) (Ideal.ofBits .f32 0x46000000#32) = -(Ideal.div s (Ideal.ofBits .f32 0x46000000#32)) := by
  rw [ofBits_8192, Ideal.div_coe (by norm_num), Ideal.div_coe (by norm_num), EReal.neg_mul]

end Cert.FocalAlg

end
-- ==== Proof.BlockValue.lean ====
/-
  What one grid point leaves in the accumulator tile.

  At a grid point the body holds a block of 128 rows of logits and the rows' 128 labels. Its first loop runs over the 25
  chunks of 1280 lanes and leaves each row's largest entry; its second leaves, per row, the sum over all lanes of
  exp (entry - largest) and the one-hot-selected (entry - largest) at the row's label. From these it forms the row's
  log-softmax at the label, the focal term, and the sum of the 128 terms, which it adds into lane (0, 0, 0) of the
  [1, 8, 128] accumulator tile, adding zero into every other lane; at the first point of a reduction stretch the tile is
  zeroed first.
-/
import proofs.«402658_j15461882265978_3_alg».proof.Proof.Gen.KernelIdeal.Frame
import proofs.«402658_j15461882265978_3_alg».proof.Proof.Spec
import proofs.«402658_j15461882265978_3_alg».proof.Proof.PayMath
import proofs.«402658_j15461882265978_3_alg».proof.Proof.Algebra
import Idealize.ShloMosaic.Lib.Pipeline.Value
import Idealize.ShloMosaic.Lib.Tactic

set_option maxRecDepth 16384

noncomputable section

open scoped BigOperators

namespace Cert.KernelIdeal.BlockValue

open Cert.KernelIdeal Cert.KernelIdeal.Gen
open Idealize.ShloMosaic Idealize.ShloMosaic.TcCoe Idealize.SL.Sem Idealize.ShloMosaic.ValueIdx
open Cert.LibBlockSum

/-- The block's contribution to the loss: the sum of its 128 rows' terms, each row with its own label. -/
def blockTerm (x0 : Vec Ideal S128x32000 .f32) (x1 : Vec Ideal S128x1 .i32) : EReal :=
  ∑ r : Fin 128, Cert.Focal.term (fun k : Fin 32000 => x0 (ix2 r k)) (Cert.Focal.col (x1 (ix2 r (0 : Fin 1))))

theorem hz3 : (![0, 0, 0] : Fin 3 → Nat) = fun _ => 0 := funext fun a => by fin_cases a <;> rfl
theorem hz2 : (![0, 0] : Fin 2 → Nat) = fun _ => 0 := funext fun a => by fin_cases a <;> rfl

/-- Both loops make 25 trips. -/
theorem trips1 : k0_t1_loop.trips = 25 := rfl
theorem trips2 : k0_t2_loop.trips = 25 := rfl

/-- The column of lane `j` of chunk `k`: 1280·k + j. -/
abbrev lane (k : Fin 25) (j : Fin 1280) : Fin 32000 := blockIdx (B := 25) (R := 1280) (N := 32000) (by norm_num) k j

section Body

variable (c : Dev nD) (i : grid0.Coords) (arg2 : Memref sig .tc .vmem S128x32000 .f32) (harg2 : arg2.IsWhole)
  (arg3 : Memref sig .tc .vmem S128x1 .i32) (harg3 : arg3.IsWhole) (arg4 : Memref sig .tc .vmem S1x8x128 .f32) (harg4 : arg4.IsWhole)

/-- Chunk `k` as the first loop loads it from the block: lane `j` of row `r` is the block's entry at column 1280·k + j. -/
theorem load1 (x0 : Vec Ideal S128x32000 .f32) (k : Fin 25) (r : Fin 128) (j : Fin 1280) :
    View.readAt (Elt Ideal) arg2.view (Rect.unit (s := S128x32000) (k0_off1 k) S128x1280.size (k0_off1_inb k)).toLoadRect
        (harg2.unread x0) (ix2 r j) = x0 (ix2 r (lane k j)) := by
  rw [View.readAt_eq_ld, harg2.read_unread]
  show x0 ((Rect.unit (s := S128x32000) (k0_off1 k) S128x1280.size (k0_off1_inb k)).emb (ix2 r j)) = _
  congr 1
  funext a
  refine Fin.ext ?_
  match a with
  | ⟨0, _⟩ =>
    show (k0_off1 k) 0 + 1 * r.val = r.val
    have e : k0_off1 k = ![0, 1280 * k.val] := k0_off1_eq k
    rw [e]; simp
  | ⟨1, _⟩ =>
    show (k0_off1 k) 1 + 1 * j.val = 1280 * k.val + j.val
    have e : k0_off1 k = ![0, 1280 * k.val] := k0_off1_eq k
    rw [e]; simp

/-- The same for the second loop. -/
theorem load2 (x0 : Vec Ideal S128x32000 .f32) (k : Fin 25) (r : Fin 128) (j : Fin 1280) :
    View.readAt (Elt Ideal) arg2.view (Rect.unit (s := S128x32000) (k0_off2 k) S128x1280.size (k0_off2_inb k)).toLoadRect
        (harg2.unread x0) (ix2 r j) = x0 (ix2 r (lane k j)) := by
  rw [View.readAt_eq_ld, harg2.read_unread]
  show x0 ((Rect.unit (s := S128x32000) (k0_off2 k) S128x1280.size (k0_off2_inb k)).emb (ix2 r j)) = _
  congr 1
  funext a
  refine Fin.ext ?_
  match a with
  | ⟨0, _⟩ =>
    show (k0_off2 k) 0 + 1 * r.val = r.val
    have e : k0_off2 k = ![0, 1280 * k.val] := k0_off2_eq k
    rw [e]; simp
  | ⟨1, _⟩ =>
    show (k0_off2 k) 1 + 1 * j.val = 1280 * k.val + j.val
    have e : k0_off2 k = ![0, 1280 * k.val] := k0_off2_eq k
    rw [e]; simp

/-- One trip of the first loop yields the running maximum joined with the loaded chunk's row maxima. -/
theorem trip1 (X : BufTy.Contents (Elt Ideal) arg2.view.ty) (k : Fin 25) (acc : FVec Ideal S128x1 .f32) :
    tripR_k0_t1 (F := Ideal) Variants.none c none i arg2 harg2 arg3 harg3 arg4 harg4 X k acc
      = k0_pay3 acc (View.readAt (Elt Ideal) arg2.view (Rect.unit (s := S128x32000) (k0_off1 k) S128x1280.size (k0_off1_inb k)).toLoadRect X) := by
  show (trip_k0_t1 (F := Ideal) Variants.none c none i arg2 harg2 arg3 harg3 arg4 harg4 X k).1 acc = _
  unfold trip_k0_t1
  rfl

/-- One trip of the second loop yields the two running sums, each with the loaded chunk's amount added. -/
theorem trip2 (v3 : Vec Ideal S128x1 .i32) (v7 : FVec Ideal S128x1 .f32) (X : BufTy.Contents (Elt Ideal) arg2.view.ty) (k : Fin 25)
    (acc : FVec Ideal S128x1 .f32 × FVec Ideal S128x1 .f32) :
    tripR_k0_t2 (F := Ideal) Variants.none c none i arg2 harg2 arg3 harg3 arg4 harg4 v3 v7 X k acc
      = (k0_pay6 v7 acc.1 (View.readAt (Elt Ideal) arg2.view (Rect.unit (s := S128x32000) (k0_off2 k) S128x1280.size (k0_off2_inb k)).toLoadRect X),
         k0_pay7 v3 v7 k acc.2 (View.readAt (Elt Ideal) arg2.view (Rect.unit (s := S128x32000) (k0_off2 k) S128x1280.size (k0_off2_inb k)).toLoadRect X)) := by
  show (trip_k0_t2 (F := Ideal) Variants.none c none i arg2 harg2 arg3 harg3 arg4 harg4 v3 v7 X k).1 acc = _
  unfold trip_k0_t2
  rfl

/-- AFTER THE FIRST LOOP each row holds its largest entry. -/
theorem max_loop (x0 : Vec Ideal S128x32000 .f32) (r : Fin 128) :
    st_k0_t1 (F := Ideal) Variants.none c none i arg2 harg2 arg3 harg3 arg4 harg4 (harg2.unread x0) k0_pay2 25 (ix2 r (0 : Fin 1))
      = Cert.Focal.rowMax (fun k : Fin 32000 => x0 (ix2 r k)) := by
  have h := Cert.FocalAlg.rec_sup 25 (fun k : Fin 25 => Finset.univ.sup fun j : Fin 1280 => x0 (ix2 r (lane k j)))
    (fun n => st_k0_t1 (F := Ideal) Variants.none c none i arg2 harg2 arg3 harg3 arg4 harg4 (harg2.unread x0) k0_pay2 n (ix2 r (0 : Fin 1)))
    ⊥ (Cert.KernelIdeal.PayMath.pay2_apply _) (fun k => by
      show st_k0_t1 (F := Ideal) Variants.none c none i arg2 harg2 arg3 harg3 arg4 harg4 (harg2.unread x0) k0_pay2 (k.val + 1) (ix2 r (0 : Fin 1)) = _
      rw [st_k0_t1_succ (F := Ideal) Variants.none c none i arg2 harg2 arg3 harg3 arg4 harg4 (harg2.unread x0) k0_pay2 k, trip1,
        Cert.KernelIdeal.PayMath.pay3_apply]
      exact congrArg _ (Finset.sup_congr rfl fun j _ => load1 arg2 harg2 x0 k r j))
  rw [h, max_eq_right bot_le]
  exact Cert.FocalAlg.sup_chunks (fun k : Fin 32000 => x0 (ix2 r k))

/-- AFTER THE SECOND LOOP, first component: each row holds the sum over all its lanes of exp (entry - the row's shift). -/
theorem sum_loop (x0 : Vec Ideal S128x32000 .f32) (x1 : Vec Ideal S128x1 .i32) (v7 : FVec Ideal S128x1 .f32) (r : Fin 128) :
    (st_k0_t2 (F := Ideal) Variants.none c none i arg2 harg2 arg3 harg3 arg4 harg4 x1 v7 (harg2.unread x0) (k0_pay4, k0_pay4) 25).1 (ix2 r (0 : Fin 1))
      = ∑ cc : Fin 32000, Ideal.exp (x0 (ix2 r cc) - v7 (ix2 r (0 : Fin 1))) := by
  have h := Cert.FocalAlg.rec_sum 25 (fun k : Fin 25 => ∑ j : Fin 1280, Ideal.exp (x0 (ix2 r (lane k j)) - v7 (ix2 r (0 : Fin 1))))
    (fun n => (st_k0_t2 (F := Ideal) Variants.none c none i arg2 harg2 arg3 harg3 arg4 harg4 x1 v7 (harg2.unread x0) (k0_pay4, k0_pay4) n).1 (ix2 r (0 : Fin 1)))
    0 (Cert.KernelIdeal.PayMath.pay4_apply (ix2 r (0 : Fin 1))) (fun k => by
      show (st_k0_t2 (F := Ideal) Variants.none c none i arg2 harg2 arg3 harg3 arg4 harg4 x1 v7 (harg2.unread x0) (k0_pay4, k0_pay4) (k.val + 1)).1 (ix2 r (0 : Fin 1)) = _
      rw [st_k0_t2_succ (F := Ideal) Variants.none c none i arg2 harg2 arg3 harg3 arg4 harg4 x1 v7 (harg2.unread x0) (k0_pay4, k0_pay4) k, trip2]
      show k0_pay6 (F := Ideal) v7 _ _ (ix2 r (0 : Fin 1)) = _
      rw [Cert.KernelIdeal.PayMath.pay6_apply]
      exact congrArg _ (Finset.sum_congr rfl fun j _ => by rw [load2 arg2 harg2 x0 k r j]))
  rw [h, zero_add]
  exact (sum_blocks (B := 25) (R := 1280) (N := 32000) (by norm_num)
    (fun cc : Fin 32000 => Ideal.exp (x0 (ix2 r cc) - v7 (ix2 r (0 : Fin 1))))).symm

/-- AFTER THE SECOND LOOP, second component: each row holds its entry at the label's column less the row's shift
    (the one lane whose column number is the label is selected; the label is a column number). -/
theorem sel_loop (x0 : Vec Ideal S128x32000 .f32) (x1 : Vec Ideal S128x1 .i32) (v7 : FVec Ideal S128x1 .f32) (r : Fin 128)
    (hx : (x1 (ix2 r (0 : Fin 1))).toNat < 32000) :
    (st_k0_t2 (F := Ideal) Variants.none c none i arg2 harg2 arg3 harg3 arg4 harg4 x1 v7 (harg2.unread x0) (k0_pay4, k0_pay4) 25).2 (ix2 r (0 : Fin 1))
      = x0 (ix2 r ⟨(x1 (ix2 r (0 : Fin 1))).toNat, hx⟩) - v7 (ix2 r (0 : Fin 1)) := by
  have h := Cert.FocalAlg.rec_sum 25
    (fun k : Fin 25 => ∑ j : Fin 1280,
      if (lane k j).val = (x1 (ix2 r (0 : Fin 1))).toNat then x0 (ix2 r (lane k j)) - v7 (ix2 r (0 : Fin 1)) else 0)
    (fun n => (st_k0_t2 (F := Ideal) Variants.none c none i arg2 harg2 arg3 harg3 arg4 harg4 x1 v7 (harg2.unread x0) (k0_pay4, k0_pay4) n).2 (ix2 r (0 : Fin 1)))
    0 (Cert.KernelIdeal.PayMath.pay4_apply (ix2 r (0 : Fin 1))) (fun k => by
      show (st_k0_t2 (F := Ideal) Variants.none c none i arg2 harg2 arg3 harg3 arg4 harg4 x1 v7 (harg2.unread x0) (k0_pay4, k0_pay4) (k.val + 1)).2 (ix2 r (0 : Fin 1)) = _
      rw [st_k0_t2_succ (F := Ideal) Variants.none c none i arg2 harg2 arg3 harg3 arg4 harg4 x1 v7 (harg2.unread x0) (k0_pay4, k0_pay4) k, trip2]
      show k0_pay7 (F := Ideal) x1 v7 k _ _ (ix2 r (0 : Fin 1)) = _
      refine (Cert.KernelIdeal.PayMath.pay7_apply x1 v7 k _ _ r (0 : Fin 1)).trans ?_
      refine congrArg _ (Finset.sum_congr rfl fun j _ => ?_)
      rw [load2 arg2 harg2 x0 k r j]
      rfl)
  rw [h, zero_add]
  rw [← sum_blocks (B := 25) (R := 1280) (N := 32000) (by norm_num)
    (fun cc : Fin 32000 => if cc.val = (x1 (ix2 r (0 : Fin 1))).toNat then x0 (ix2 r cc) - v7 (ix2 r (0 : Fin 1)) else 0)]
  exact Cert.FocalAlg.sum_onehot (fun cc : Fin 32000 => x0 (ix2 r cc) - v7 (ix2 r (0 : Fin 1))) _ hx

/-- THE TILE'S GAIN AT A POINT: over what the tile held, lane (0, 0, 0) gains the block's contribution and the other lanes zero. -/
theorem tile_gain (x0 : Vec Ideal S128x32000 .f32) (x1 : Vec Ideal S128x1 .i32)
    (hx1 : ∀ r : Fin 128, (x1 (ix2 r (0 : Fin 1))).toNat < 32000) (xo : Vec Ideal S1x8x128 .f32) (y : S1x8x128.Idx) :
    k0_pay8 (F := Ideal)
        (st_k0_t2 (F := Ideal) Variants.none c none i arg2 harg2 arg3 harg3 arg4 harg4 x1
          (st_k0_t1 (F := Ideal) Variants.none c none i arg2 harg2 arg3 harg3 arg4 harg4 (harg2.unread x0) k0_pay2 25) (harg2.unread x0) (k0_pay4, k0_pay4) 25).1
        (st_k0_t2 (F := Ideal) Variants.none c none i arg2 harg2 arg3 harg3 arg4 harg4 x1
          (st_k0_t1 (F := Ideal) Variants.none c none i arg2 harg2 arg3 harg3 arg4 harg4 (harg2.unread x0) k0_pay2 25) (harg2.unread x0) (k0_pay4, k0_pay4) 25).2
        xo y
      = xo y + if (y 1).val = 0 ∧ (y 2).val = 0 then blockTerm x0 x1 else 0 := by
  rw [Cert.KernelIdeal.PayMath.pay8_apply]
  refine congrArg (fun t => xo y + if (y 1).val = 0 ∧ (y 2).val = 0 then t else 0) ?_
  unfold blockTerm
  refine Finset.sum_congr rfl fun r _ => ?_
  rw [sum_loop, sel_loop c i arg2 harg2 arg3 harg3 arg4 harg4 x0 x1 _ r (hx1 r), max_loop]
  have hcol : Cert.Focal.col (x1 (ix2 r (0 : Fin 1))) = ⟨(x1 (ix2 r (0 : Fin 1))).toNat, hx1 r⟩ :=
    Fin.ext (Nat.mod_eq_of_lt (hx1 r))
  rw [hcol]
  rfl

/-- A point that is not the first of its stretch adds the block's contribution into lane (0, 0, 0) of what the tile held, and
    zero into the other lanes. -/
theorem out_B_apply (hc0 : ¬cond0_0 i) (x0 : Vec Ideal S128x32000 .f32) (x1 : Vec Ideal S128x1 .i32)
    (hx1 : ∀ r : Fin 128, (x1 (ix2 r (0 : Fin 1))).toNat < 32000) (xo2 : Vec Ideal S1x8x128 .f32) (y : S1x8x128.Idx) :
    out0_B_2 (F := Ideal) c i arg2 harg2 arg3 harg3 arg4 harg4 hc0 x0 x1 xo2 y
      = xo2 y + if (y 1).val = 0 ∧ (y 2).val = 0 then blockTerm x0 x1 else 0 := by
  unfold out0_B_2
  rw [View.read_writes_eq_canon _ _ _ (cover0_B_2 c i arg2 harg2 arg3 harg3 arg4 harg4 hc0 x0 x1 xo2)]
  unfold kernelRun0_B
  dsimp only
  sl_unfold_words
  rw [View.canon_unit_zero hz3]
  simp only [View.readAt_eq_ld, harg3.read_unread, harg4.read_unread, View.ld_unit_zero (S := S128x1) hz2,
    View.ld_unit_zero (S := S1x8x128) hz3]
  exact tile_gain c i arg2 harg2 arg3 harg3 arg4 harg4 x0 x1 hx1 xo2 y

/-- The first point of a stretch does the same over a zeroed tile. -/
theorem out_A_apply (hc0 : cond0_0 i) (x0 : Vec Ideal S128x32000 .f32) (x1 : Vec Ideal S128x1 .i32)
    (hx1 : ∀ r : Fin 128, (x1 (ix2 r (0 : Fin 1))).toNat < 32000) (y : S1x8x128.Idx) :
    out0_A_2 (F := Ideal) c i arg2 harg2 arg3 harg3 arg4 harg4 hc0 x0 x1 y
      = 0 + if (y 1).val = 0 ∧ (y 2).val = 0 then blockTerm x0 x1 else 0 := by
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S1x8x128) hz3, View.readCov_unit_zero (S := S1x8x128) _ hz3]
  simp only [View.readAt_eq_ld, harg3.read_unread, View.ld_unit_zero (S := S128x1) hz2]
  have h := tile_gain c i arg2 harg2 arg3 harg3 arg4 harg4 x0 x1 hx1 (k0_pay1 (F := Ideal)) y
  rw [Cert.KernelIdeal.PayMath.pay1_apply y] at h
  exact h

end Body

end Cert.KernelIdeal.BlockValue

end
-- ==== Proof.LibAcc.lean ====
import Mathlib.Algebra.BigOperators.Fin

/-!
# An accumulator that is reset at the start of each stretch

The points `0, 1, …, B * T - 1` fall into `B` stretches of `T` consecutive points.  An accumulator that
holds the point's term at the first point of a stretch, and at every other point what the point before left
plus the point's term, holds at point `i` of stretch `b` the sum of the terms of the points `0, …, i` of that
stretch; at the stretch's last point, the sum over the whole stretch.
-/

namespace Cert.LibAcc

/-- Point `k` of stretch `b` is a point. -/
theorem idx_lt {T B : ℕ} (b : Fin B) {k : ℕ} (hk : k < T) : b.val * T + k < B * T :=
  calc b.val * T + k < b.val * T + T := Nat.add_lt_add_left hk _
    _ = (b.val + 1) * T := (Nat.succ_mul _ _).symm
    _ ≤ B * T := Nat.mul_le_mul_right T b.isLt

/-- Point `k` of a stretch has remainder `k`. -/
theorem mod_eq (b T k : ℕ) (hk : k < T) : (b * T + k) % T = k := by
  rw [Nat.add_comm, Nat.add_mul_mod_self_right, Nat.mod_eq_of_lt hk]

section
variable {M : Type} [AddCommMonoid M] (T B : ℕ) (acc s : (n : ℕ) → n < B * T → M)

/-- The accumulator at equal points. -/
theorem acc_congr {n n' : ℕ} (e : n = n') (h : n < B * T) (h' : n' < B * T) : acc n h = acc n' h' := by
  subst e; rfl

variable (hreset : ∀ n (hn : n < B * T), n % T = 0 → acc n hn = s n hn)
  (hstep : ∀ n (hn : n < B * T) (h : n % T ≠ 0), acc n hn = acc (n - 1) (by omega) + s n hn)

include hreset hstep in
/-- At point `k` of stretch `b` the accumulator holds the sum of the stretch's terms up to `k`. -/
theorem acc_prefix (b : Fin B) : ∀ (k : ℕ) (hk : k < T),
    acc (b.val * T + k) (idx_lt b hk)
      = ∑ i' : Fin (k + 1), s (b.val * T + i'.val) (idx_lt b (Nat.lt_of_lt_of_le i'.isLt hk))
  | 0, hk => by
    rw [Fin.sum_univ_one]
    exact hreset _ _ (mod_eq b.val T 0 hk)
  | k + 1, hk => by
    rw [Fin.sum_univ_castSucc]
    have hmod : (b.val * T + (k + 1)) % T ≠ 0 := by rw [mod_eq b.val T (k + 1) hk]; omega
    rw [hstep _ _ hmod]
    refine congrArg₂ (· + ·) ?_ rfl
    exact (acc_congr T B acc (by omega) _ (idx_lt b (Nat.lt_of_succ_lt hk))).trans
      (acc_prefix b k (Nat.lt_of_succ_lt hk))

include hreset hstep in
/-- The same over the points of a stretch as `Fin T`. -/
theorem acc_stretch (b : Fin B) (i : Fin T) :
    acc (b.val * T + i.val) (idx_lt b i.isLt)
      = ∑ i' : Fin (i.val + 1), s (b.val * T + i'.val) (idx_lt b (Nat.lt_of_lt_of_le i'.isLt i.isLt)) :=
  acc_prefix T B acc s hreset hstep b i.val i.isLt

include hreset hstep in
/-- At the last point of a stretch the accumulator holds the stretch's sum. -/
theorem acc_last (hT : 0 < T) (b : Fin B) :
    acc (b.val * T + (T - 1)) (idx_lt b (by omega)) = ∑ i : Fin T, s (b.val * T + i.val) (idx_lt b i.isLt) := by
  cases T with
  | zero => omega
  | succ T' => exact acc_prefix (T' + 1) B acc s hreset hstep b T' (Nat.lt_succ_self T')

end

section
variable {M : Type} [AddCommMonoid M] (T B : ℕ) (acc s : (n : ℕ) → n < B * T → M) (z : M) (hz : z = 0)
  (hreset : ∀ n (hn : n < B * T), n % T = 0 → acc n hn = z + s n hn)
  (hstep : ∀ n (hn : n < B * T) (h : n % T ≠ 0), acc n hn = acc (n - 1) (by omega) + s n hn)

include hz hreset hstep in
/-- The same when the first point of a stretch adds its term to a zero. -/
theorem acc_stretch_zero (b : Fin B) (i : Fin T) :
    acc (b.val * T + i.val) (idx_lt b i.isLt)
      = ∑ i' : Fin (i.val + 1), s (b.val * T + i'.val) (idx_lt b (Nat.lt_of_lt_of_le i'.isLt i.isLt)) :=
  acc_stretch T B acc s (fun n hn h => by rw [hreset n hn h, hz, zero_add]) hstep b i

include hz hreset hstep in
theorem acc_last_zero (hT : 0 < T) (b : Fin B) :
    acc (b.val * T + (T - 1)) (idx_lt b (by omega)) = ∑ i : Fin T, s (b.val * T + i.val) (idx_lt b i.isLt) :=
  acc_last T B acc s (fun n hn h => by rw [hreset n hn h, hz, zero_add]) hstep hT b

end

end Cert.LibAcc
-- ==== Proof.GridArr.lean ====
/-
  The accumulator tiles after the region.

  Grid point t = 32·cc + i (cc the core half, i the step) holds rows 128·t … 128·t + 127 of the logits and their labels.
  The tile of core half cc is zeroed at i = 0, gains at every step the block's contribution in lane (0, 0, 0) and zero in
  the other lanes, and is written back to row cc of the [2, 8, 128] result array after step 31. So that array holds, in
  lane (cc, 0, 0), the sum of the terms of rows 4096·cc … 4096·cc + 4095, and zero elsewhere.
-/
import proofs.«402658_j15461882265978_3_alg».proof.Proof.BlockValue
import proofs.«402658_j15461882265978_3_alg».proof.Proof.LibAcc
import proofs.«402658_j15461882265978_3_alg».proof.Proof.LibBlockSum
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.GridArr

open Cert.KernelIdeal Cert.KernelIdeal.Gen
open Idealize.ShloMosaic Idealize.ShloMosaic.TcCoe Idealize.SL.Sem Idealize.ShloMosaic.ValueIdx
open Idealize.ShloMosaic.Pipeline (Dat)
open Cert.LibBlockSum

/-- Row `r` of the block of step `i` of core half `cc`, among the 8192 rows: 128·(32·cc + i) + r. -/
def rowOf (cc : Fin 2) (i : Fin 32) (r : Fin 128) : Fin 8192 :=
  blockIdx (B := 64) (R := 128) (N := 8192) (by norm_num) (blockIdx (B := 2) (R := 32) (N := 64) (by norm_num) cc i) r

/-- The sum of the terms of core half `cc`'s 4096 rows, block by block. -/
def halfSum (X : Cert.Focal.SX.Idx → EReal) (L : Cert.Focal.SL.Idx → BitVec 32) (cc : Fin 2) : EReal :=
  ∑ i : Fin 32, ∑ r : Fin 128, Cert.Focal.term (Cert.Focal.row X (rowOf cc i r)) (Cert.Focal.col (L (ix1 (rowOf cc i r))))

/-- What the [2, 8, 128] array holds after the region: the half's sum in lane (cc, 0, 0), zero elsewhere. -/
def outArr (X : Cert.Focal.SX.Idx → EReal) (L : Cert.Focal.SL.Idx → BitVec 32) : S2x8x128.Idx → EReal :=
  fun y => if (y 1).val = 0 ∧ (y 2).val = 0 then halfSum X L ⟨(y 0).val, (y 0).isLt⟩ else 0

section
variable (m : (ℓ : Loc nD τ sig) → Buf (Elt Ideal) ℓ) (c : Dev nD)

/-- The block row of the logits window and of the labels window at a grid point is the point's number; the other block index is zero. -/
private theorem idx_in : ∀ t : Fin cfg0.N, (win0_0.index t 0 = t.val ∧ win0_0.index t 1 = 0) ∧ (win0_1.index t 0 = t.val ∧ win0_1.index t 1 = 0) :=
  (by decide +kernel : ∀ t : Fin grid0.N, (win0_0.index t 0 = t.val ∧ win0_0.index t 1 = 0) ∧ (win0_1.index t 0 = t.val ∧ win0_1.index t 1 = 0))

/-- Row `r` of the block of grid point `t` is one of the 8192 rows. -/
private theorem row_lt (t : Fin cfg0.N) (r : Fin 128) : 128 * t.val + r.val < 8192 := by
  have hN : t.val < 64 := lt_of_lt_of_eq t.isLt (show cfg0.N = 64 from N_0)
  have := r.isLt
  omega

/-- The logits block of grid point `t` at (r, k) is the logits array at (128·t + r, k). -/
private theorem iblk0_apply (t : Fin cfg0.N) (r : Fin 128) (k : Fin 32000) :
    (iblk m c 0 t : Vec Ideal S128x32000 .f32) (ix2 r k)
      = m ((c.tc : Thread nD τ).loc main_arg0) (ix2 ⟨128 * t.val + r.val, row_lt t r⟩ k) := by
  have hi := (idx_in t).1
  unfold iblk
  rw [View.read_apply]
  show V m c main_arg0 _ = _
  rw [V_main_arg0]
  refine congrArg _ (funext fun a => Fin.ext ?_)
  match a with
  | ⟨0, _⟩ => show win0_0.index t 0 * 128 + 1 * r.val = 128 * t.val + r.val; rw [hi.1]; omega
  | ⟨1, _⟩ => show win0_0.index t 1 * 32000 + 1 * k.val = k.val; rw [hi.2]; omega

/-- The labels as the region finds them: the host's reshape of the label vector to a column. -/
private theorem V_labels : (V m c main_v0 : S8192x1.Idx → BitVec 32)
    = shapeCast S8192x1 (m ((c.tc : Thread nD τ).loc main_arg1)) shapeCasts_S8192_S8192x1 := by
  dsimp only [Gen.V, Gen.V0]
  simp only [Gen.hostOps0, List.flatten_cons, List.flatten_nil, List.append_nil]
  after_results
  rfl

/-- The labels block of grid point `t` at (r, 0) is the label of row 128·t + r. -/
private theorem iblk1_apply (t : Fin cfg0.N) (r : Fin 128) :
    (iblk m c 1 t : Vec Ideal S128x1 .i32) (ix2 r (0 : Fin 1))
      = m ((c.tc : Thread nD τ).loc main_arg1) (ix1 ⟨128 * t.val + r.val, row_lt t r⟩) := by
  have hi := (idx_in t).2
  unfold iblk
  rw [View.read_apply]
  show (V m c main_v0 : S8192x1.Idx → BitVec 32) _ = _
  rw [V_labels]
  refine shapeCast_apply (s := S8192) (t := S8192x1) _ _ _ _ ?_
  rw [Shape.rowMajor_val_two, Shape.rowMajor_val_one]
  show 128 * t.val + r.val = (win0_1.index t 0 * 128 + 1 * r.val) * 1 + (win0_1.index t 1 * 1 + 1 * 0)
  rw [hi.1, hi.2]
  omega

variable (hL : ∀ R : Fin 8192, (m ((c.tc : Thread nD τ).loc main_arg1) (ix1 R)).toNat < 32000)

include hL in
/-- Every label a block holds is a column number. -/
private theorem labels_lt (t : Fin cfg0.N) (r : Fin 128) :
    ((iblk m c 1 t : Vec Ideal S128x1 .i32) (ix2 r (0 : Fin 1))).toNat < 32000 := by
  rw [iblk1_apply]
  exact hL _

/-- What the block of point `t` adds to the tile at lane `y`: the block's sum of terms in lane (0, 0, 0), zero in the others. -/
private def gain (t : Fin cfg0.N) (y : S1x8x128.Idx) : EReal :=
  if (y 1).val = 0 ∧ (y 2).val = 0 then BlockValue.blockTerm (iblk m c 0 t) (iblk m c 1 t) else 0

include hL in
/-- At the first point of a stretch the tile holds zero plus the point's gain. -/
private theorem outs_reset (y : S1x8x128.Idx) (t : Fin cfg0.N) (h0 : t.val % 32 = 0) :
    ((outsAt0 m c t.val t.isLt : Vec Ideal S1x8x128 .f32) y : EReal) = 0 + gain m c t y := by
  rw [outsAt0_A m c t h0]
  exact BlockValue.out_A_apply c (grid0.coords t) (ms0_0 t) (hs0_0 t) (ms0_1 t) (hs0_1 t) (ms0_2 t) (hs0_2 t)
    ((hcond0_0 t).mpr h0) (iblk m c 0 t) (iblk m c 1 t) (labels_lt m c hL t) y

include hL in
/-- At any other point it holds what the point before left plus the point's gain. -/
private theorem outs_step (y : S1x8x128.Idx) (t : Fin cfg0.N) (h0 : ¬t.val % 32 = 0) :
    ((outsAt0 m c t.val t.isLt : Vec Ideal S1x8x128 .f32) y : EReal)
      = (outsAt0 m c (t.val - 1) (Nat.lt_of_le_of_lt (Nat.sub_le _ _) t.isLt) : Vec Ideal S1x8x128 .f32) y + gain m c t y := by
  rw [outsAt0_B m c t h0]
  exact BlockValue.out_B_apply c (grid0.coords t) (ms0_0 t) (hs0_0 t) (ms0_1 t) (hs0_1 t) (ms0_2 t) (hs0_2 t)
    (fun h => h0 ((hcond0_0 t).mp h)) (iblk m c 0 t) (iblk m c 1 t) (labels_lt m c hL t)
    (outsAt0 m c (t.val - 1) (Nat.lt_of_le_of_lt (Nat.sub_le _ _) t.isLt)) y

/-- A number below 2·32 is a grid point. -/
private theorem lt64 {n : ℕ} (h : n < 2 * 32) : n < cfg0.N := by
  rw [show cfg0.N = 64 from N_0]; exact h

include hL in
/-- After the last point of a core half's stretch the tile holds the sum of the stretch's gains. -/
private theorem outs_last (y : S1x8x128.Idx) (cc : Fin 2) :
    ((outsAt0 m c (cc.val * 32 + (32 - 1)) (lt64 (Cert.LibAcc.idx_lt cc (by omega))) : Vec Ideal S1x8x128 .f32) y : EReal)
      = ∑ i : Fin 32, gain m c ⟨cc.val * 32 + i.val, lt64 (Cert.LibAcc.idx_lt cc i.isLt)⟩ y :=
  Cert.LibAcc.acc_last_zero 32 2
    (fun n h => ((outsAt0 m c n (lt64 h) : Vec Ideal S1x8x128 .f32) y : EReal))
    (fun n h => gain m c ⟨n, lt64 h⟩ y) 0 rfl
    (fun n hn h0 => outs_reset m c hL y ⟨n, lt64 hn⟩ h0)
    (fun n hn h0 => outs_step m c hL y ⟨n, lt64 hn⟩ h0)
    (by norm_num) cc

/-- The block of step `i` of core half `cc` holds the rows `rowOf cc i r` and their labels, so its sum of terms is theirs. -/
private theorem blockTerm_eq (cc : Fin 2) (i : Fin 32) (h : cc.val * 32 + i.val < cfg0.N) :
    BlockValue.blockTerm (iblk m c 0 ⟨cc.val * 32 + i.val, h⟩) (iblk m c 1 ⟨cc.val * 32 + i.val, h⟩)
      = ∑ r : Fin 128, Cert.Focal.term (Cert.Focal.row (m ((c.tc : Thread nD τ).loc main_arg0)) (rowOf cc i r))
          (Cert.Focal.col (m ((c.tc : Thread nD τ).loc main_arg1) (ix1 (rowOf cc i r)))) := by
  unfold BlockValue.blockTerm
  refine Finset.sum_congr rfl fun r _ => ?_
  have e : (⟨128 * (cc.val * 32 + i.val) + r.val, row_lt ⟨cc.val * 32 + i.val, h⟩ r⟩ : Fin 8192) = rowOf cc i r :=
    Fin.ext (by show 128 * (cc.val * 32 + i.val) + r.val = 128 * (32 * cc.val + i.val) + r.val; omega)
  have e0 : (fun k : Fin 32000 => (iblk m c 0 ⟨cc.val * 32 + i.val, h⟩ : Vec Ideal S128x32000 .f32) (ix2 r k))
      = Cert.Focal.row (m ((c.tc : Thread nD τ).loc main_arg0)) (rowOf cc i r) :=
    funext fun k => (iblk0_apply m c ⟨cc.val * 32 + i.val, h⟩ r k).trans
      (congrArg (fun R : Fin 8192 => m ((c.tc : Thread nD τ).loc main_arg0) (ix2 R k)) e)
  have e1 : (iblk m c 1 ⟨cc.val * 32 + i.val, h⟩ : Vec Ideal S128x1 .i32) (ix2 r (0 : Fin 1))
      = m ((c.tc : Thread nD τ).loc main_arg1) (ix1 (rowOf cc i r)) :=
    (iblk1_apply m c ⟨cc.val * 32 + i.val, h⟩ r).trans
      (congrArg (fun R : Fin 8192 => m ((c.tc : Thread nD τ).loc main_arg1) (ix1 R)) e)
  exact congrArg₂ Cert.Focal.term e0 (congrArg Cert.Focal.col e1)

/-- The gains of a core half's stretch sum to the half's sum in lane (0, 0, 0) and to zero in the other lanes. -/
private theorem sum_gain (y : S1x8x128.Idx) (cc : Fin 2) :
    ∑ i : Fin 32, gain m c ⟨cc.val * 32 + i.val, lt64 (Cert.LibAcc.idx_lt cc i.isLt)⟩ y
      = if (y 1).val = 0 ∧ (y 2).val = 0 then
          halfSum (m ((c.tc : Thread nD τ).loc main_arg0)) (m ((c.tc : Thread nD τ).loc main_arg1)) cc else 0 := by
  unfold gain
  by_cases hy : (y 1).val = 0 ∧ (y 2).val = 0
  · simp only [if_pos hy]
    unfold halfSum
    exact Finset.sum_congr rfl fun i _ => blockTerm_eq m c cc i _
  · simp only [if_neg hy]
    exact Finset.sum_const_zero

/-- The result array at an index whose coordinates are known. -/
private theorem outArr_at (X : Cert.Focal.SX.Idx → EReal) (L : Cert.Focal.SL.Idx → BitVec 32) (j : S2x8x128.Idx) (cc : Fin 2) (a b : ℕ)
    (h0 : (j 0).val = cc.val) (h1 : (j 1).val = a) (h2 : (j 2).val = b) :
    outArr X L j = if a = 0 ∧ b = 0 then halfSum X L cc else 0 := by
  unfold outArr
  rw [h1, h2, show (⟨(j 0).val, (j 0).isLt⟩ : Fin 2) = cc from Fin.ext h0]

/-- The tile of grid point `t` is row `t / 32` of the result array. -/
private theorem idx_out : ∀ t : Fin cfg0.N, win0_2.index t 0 = t.val / 32 ∧ win0_2.index t 1 = 0 ∧ win0_2.index t 2 = 0 :=
  (by decide +kernel : ∀ t : Fin grid0.N, win0_2.index t 0 = t.val / 32 ∧ win0_2.index t 1 = 0 ∧ win0_2.index t 2 = 0)

/-- The last point of a core half's stretch is a grid point. -/
private theorem last_lt (cc : Fin 2) : cc.val * 32 + (32 - 1) < cfg0.N := lt64 (Cert.LibAcc.idx_lt cc (by omega))

include hL in
/-- What a write-back writes is the block of the result array it is written to. -/
private theorem flushed_eq (t : Fin cfg0.N) (hf : (cfg0.win 2).flush t = true) :
    (dats m 0 c).flushed 2 t = ((cfg0.win 2).blk t).view.read (Elt Ideal)
      (outArr (m ((c.tc : Thread nD τ).loc main_arg0)) (m ((c.tc : Thread nD τ).loc main_arg1))) := by
  obtain ⟨cc, rfl⟩ : ∃ cc : Fin 2, t = ⟨cc.val * 32 + (32 - 1), last_lt cc⟩ := by
    have h31 : t.val % 32 = 31 := (flush0_2 t).mp hf
    have hN : t.val < 64 := lt_of_lt_of_eq t.isLt (show cfg0.N = 64 from N_0)
    exact ⟨⟨t.val / 32, by omega⟩, Fin.ext (by show t.val = t.val / 32 * 32 + (32 - 1); omega)⟩
  have hi := idx_out ⟨cc.val * 32 + (32 - 1), last_lt cc⟩
  have hcc := cc.isLt
  show (cfg0.win 2).cut (grid0.coords _) ((dats m 0 c).after 2 _) = _
  rw [after0_2]
  funext y
  have y0 : (y 0).val < 1 := (y 0).isLt
  rw [View.read_apply]
  show ((outsAt0 m c (cc.val * 32 + (32 - 1)) _ : Vec Ideal S1x8x128 .f32) y : EReal) = outArr _ _ _
  rw [outs_last m c hL y cc, sum_gain m c y cc]
  refine (outArr_at _ _ _ cc (y 1).val (y 2).val ?_ ?_ ?_).symm
  · show win0_2.index ⟨cc.val * 32 + (32 - 1), _⟩ 0 * 1 + 1 * (y 0).val = cc.val
    rw [hi.1]
    show (cc.val * 32 + (32 - 1)) / 32 * 1 + 1 * (y 0).val = cc.val
    omega
  · show win0_2.index ⟨cc.val * 32 + (32 - 1), _⟩ 1 * 8 + 1 * (y 1).val = (y 1).val
    rw [hi.2.1]
    omega
  · show win0_2.index ⟨cc.val * 32 + (32 - 1), _⟩ 2 * 128 + 1 * (y 2).val = (y 2).val
    rw [hi.2.2]
    omega

/-- Every index of the result array lies in the block written back after the last point of its row's stretch. -/
private theorem covered (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 2 := (i 0).isLt
  have h1 : (i 1 : Nat) < 8 := (i 1).isLt
  have h2 : (i 2 : Nat) < 128 := (i 2).isLt
  obtain ⟨t, ht⟩ : ∃ t : Fin cfg0.N, t.val = (i 0 : Nat) * 32 + 31 :=
    ⟨⟨(i 0 : Nat) * 32 + (32 - 1), last_lt ⟨(i 0 : Nat), h0⟩⟩, rfl⟩
  have hi := idx_out t
  refine ⟨t, (flush0_2 t).mpr (by omega), ?_⟩
  show i ∈ ((View.whole main_v1).slice (win0_2.rect t)).set
  rw [View.set_slice_whole, Rect.mem_set_unit]
  intro a
  match a with
  | ⟨0, _⟩ =>
    show win0_2.index t 0 * 1 ≤ (i 0 : Nat) ∧ (i 0 : Nat) < win0_2.index t 0 * 1 + 1
    rw [hi.1]
    omega
  | ⟨1, _⟩ =>
    show win0_2.index t 1 * 8 ≤ (i 1 : Nat) ∧ (i 1 : Nat) < win0_2.index t 1 * 8 + 8
    rw [hi.2.1]
    omega
  | ⟨2, _⟩ =>
    show win0_2.index t 2 * 128 ≤ (i 2 : Nat) ∧ (i 2 : Nat) < win0_2.index t 2 * 128 + 128
    rw [hi.2.2]
    omega

end

/-- THE RESULT ARRAY AFTER THE RUN, where every label is a column number. -/
theorem final_v1 (m : (ℓ : Loc nD τ sig) → Buf (Elt Ideal) ℓ) (c : Dev nD)
    (hL : ∀ R : Fin 8192, (m ((c.tc : Thread nD τ).loc main_arg1) (ix1 R)).toNat < 32000) :
    (dats m 0 c).arrAt 2 cfg0.N
      = outArr (m ((c.tc : Thread nD τ).loc main_arg0)) (m ((c.tc : Thread nD τ).loc main_arg1)) :=
  (dats m 0 c).arrAt_eq_of_cover 2
    (outArr (m ((c.tc : Thread nD τ).loc main_arg0)) (m ((c.tc : Thread nD τ).loc main_arg1)))
    (flushed_eq m c hL) (covered c)

end Cert.KernelIdeal.GridArr

end
-- ==== Proof.GridValue.lean ====
/-
  The kernel's run, read: the scalar it returns is the loss.

  The accumulator tile of core-half `cc` is zeroed at the first of its 32 grid points and gathers, in lane (0, 0, 0), the
  contributions of the 32 blocks of 128 rows; it is written back after the last of them. The host then sums the
  [2, 8, 128] array, negates and divides by 8192.
-/
import proofs.«402658_j15461882265978_3_alg».proof.Proof.GridArr
import proofs.«402658_j15461882265978_3_alg».proof.Proof.Algebra
import proofs.«402658_j15461882265978_3_alg».proof.Proof.LibBlockSum
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.GridValue

open Cert.KernelIdeal Cert.KernelIdeal.Gen
open Idealize.ShloMosaic Idealize.ShloMosaic.TcCoe Idealize.SL.Sem Idealize.ShloMosaic.ValueIdx
open Idealize.ShloMosaic.Pipeline (Dat)

/-! ## Sums over the [2, 8, 128] index set -/

/-- A rank-3 index set is the product of its three coordinate ranges. -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A value in lane (0, 0) of an 8 × 128 tile whose other lanes are zero: the tile sums to the value. -/
private theorem sum_lane00 (h : EReal) :
    (∑ b : Fin 8, ∑ c : Fin 128, if b.val = 0 ∧ c.val = 0 then h else 0) = h := by
  rw [Fintype.sum_eq_single (0 : Fin 8) (fun b hb => ?_), Fintype.sum_eq_single (0 : Fin 128) (fun c hc => ?_)]
  · exact if_pos ⟨rfl, rfl⟩
  · exact if_neg fun hh => hc (Fin.ext hh.2)
  · exact Finset.sum_eq_zero fun c _ => if_neg fun hh => hb (Fin.ext hh.1)

/-- The two halves' sums add up to the sum over all 8192 rows: 8192 = 64 · 128 and 64 = 2 · 32. -/
private theorem sum_halves (X : Cert.Focal.SX.Idx → EReal) (L : Cert.Focal.SL.Idx → BitVec 32) :
    ∑ cc : Fin 2, GridArr.halfSum X L cc = Cert.Focal.total X L := by
  unfold Cert.Focal.total
  rw [Cert.LibBlockSum.sum_blocks (B := 64) (R := 128) (N := 8192) (by norm_num)
        (fun R : Fin 8192 => Cert.Focal.term (Cert.Focal.row X R) (Cert.Focal.col (L (ix1 R)))),
    Cert.LibBlockSum.sum_blocks (B := 2) (R := 32) (N := 64) (by norm_num)]
  rfl

/-- The [2, 8, 128] array after the region sums to the sum of all rows' terms: lane (cc, 0, 0) holds the sum of half cc
    and every other lane zero. -/
private theorem sum_outArr (X : Cert.Focal.SX.Idx → EReal) (L : Cert.Focal.SL.Idx → BitVec 32) :
    ∑ y : S2x8x128.Idx, GridArr.outArr X L y = Cert.Focal.total X L := by
  rw [sum_idx3, ← sum_halves]
  refine Finset.sum_congr rfl fun a _ => ?_
  exact sum_lane00 (GridArr.halfSum X L a)

/-! ## The host's operations after the region -/

/-- The scalar the host computes from the [2, 8, 128] array (its sum from zero, negated, divided by 8192) is the
    loss: the array sums to the rows' total, and dividing the negated total is negating the quotient. -/
private theorem tail_v4 (m : (ℓ : Loc nD τ sig) → Buf (Elt Ideal) ℓ) (c : Dev nD)
    (hL : ∀ R : Fin 8192, (m ((c.tc : Thread nD τ).loc main_arg1) (ix1 R)).toNat < 32000) :
    Pipeline.afterTail₀ cfgs (dats m) 0 (V0 m) [hostOps1] c main_v4
      = Cert.Focal.loss (m ((c.tc : Thread nD τ).loc main_arg0)) (m ((c.tc : Thread nD τ).loc main_arg1)) := by
  have hv1 : Pipeline.withArrays (cfgs 0).spec c (V0 m c) (fun w => (dats m 0 c).arrAt w (cfgs 0).N) (Proc.devRef .tc main_v1)
      = GridArr.outArr (m ((c.tc : Thread nD τ).loc main_arg0)) (m ((c.tc : Thread nD τ).loc main_arg1)) :=
    (Pipeline.withArrays_arr spec0 launch0.win.arr_inj c _ _ 2).trans (GridArr.final_v1 m c hL)
  unfold Pipeline.afterTail₀
  show StableHlo.after hostOps1 _ (Proc.devRef .tc main_v4) = _
  after_results
  rw [hv1]
  funext j
  show Ideal.div (-(Ideal.hostReduceAdd reducesTo_S2x8x128_S_d0_1_2
        (GridArr.outArr (m ((c.tc : Thread nD τ).loc main_arg0)) (m ((c.tc : Thread nD τ).loc main_arg1)))
        (Ideal.ofBits .f32 0x00000000#32) j)) (Ideal.ofBits .f32 0x46000000#32)
      = -(Ideal.div (Cert.Focal.total (m ((c.tc : Thread nD τ).loc main_arg0)) (m ((c.tc : Thread nD τ).loc main_arg1)))
          (Ideal.ofBits .f32 0x46000000#32))
  rw [Ideal.hostReduceAdd_total _ (fun b => b.elim0), Ideal.ofBits_zero_f32, zero_add, sum_outArr,
    Cert.FocalAlg.div_neg_8192]

/-! ## The run -/

/-- THE KERNEL'S RUN AT THE IDEAL INSTANCE: from a memory whose labels are column numbers, every weakly fair execution
    terminates with the result at the loss of the argument arrays, and the arguments unchanged. -/
theorem run (m : (ℓ : Loc nD τ sig) → Buf (Elt Ideal) ℓ) (ρ : Dev nD → PrngReg)
    (hL : ∀ (c : Dev nD) (R : Fin 8192), (m ((c.tc : Thread nD τ).loc main_arg1) (ix1 R)).toNat < 32000) :
    θ_run (defs (F := Ideal)) (onTc (τ := τ) (main (F := Ideal))) ⟨m, fun _ => 0, ρ⟩ fun r => ∀ c : Dev nD,
      r.2.mem ((c.tc : Thread nD τ).loc main_v4)
          = Cert.Focal.loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_⟩) (run_main m ρ)
  · exact ((h c).2 main_v4 (Pipeline.mem_restRefs_of main_v4 (by decide) (by decide))).trans (tail_v4 m c (hL c))
  · exact ((h c).1 0).trans (((dats m 0 c).arrAt_in 0 rfl _).trans ((A_eq m c 0).trans (V_main_arg0 m c)))
  · exact ((h c).2 main_arg1 (Pipeline.mem_restRefs_of main_arg1 (by decide) (by decide))).trans
      (W_main_arg1 m (dats m) c)

end Cert.KernelIdeal.GridValue

end
-- ==== Proof.RefRun.lean ====
/-
  The reference's run, read back: the log-softmax of the logits, the gather of each row's entry at its label, and the
  reduction of the rows' terms to the loss.

  The program's 50 host operations are listed with its four reductions and its gather (the row maximum, the two float
  sums, the `and` over a unit axis, the gather of the labelled entries) as PARAMETERS: a fold over the rows' 32000
  entries is never opened when the contents after the last operation are computed, only the pointwise operations and the
  broadcasts around it are. At the four functions themselves the list is the program's, and the composed term is the
  last stage of the read-at-an-index lemmas.
-/
import proofs.«402658_j15461882265978_3_alg».proof.Proof.RefRead
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

section Abstract

variable (gmax : (⟨S8192x32000, .f32⟩ : BufTy).Contents (Elt F) → (⟨S_, .f32⟩ : BufTy).Contents (Elt F) → S8192x32000.ReducesTo [1] S8192 → 0 < S_.numel → (⟨S8192, .f32⟩ : BufTy).Contents (Elt F))
  (gadd : ∀ {s t : Shape} {axes : List (Fin s.rank)}, FVec F s .f32 → FVec F S_ .f32 → s.ReducesTo axes t → 0 < S_.numel → FVec F t .f32)
  (gand : (⟨S8192x1x1, .i1⟩ : BufTy).Contents (Elt F) → (⟨S_, .i1⟩ : BufTy).Contents (Elt F) → S8192x1x1.ReducesTo [2] S8192x1 → 0 < S_.numel → (⟨S8192x1, .i1⟩ : BufTy).Contents (Elt F))
  (ggat : GatherDims S8192x32000 S8192x1x1 S8192x1 → (⟨S8192x32000, .f32⟩ : BufTy).Contents (Elt F) → (⟨S8192x1x1, .i32⟩ : BufTy).Contents (Elt F) → (⟨S8192x1, .f32⟩ : BufTy).Contents (Elt F))

/-- The program's operations, in order, over the four parameters. -/
abbrev opsG : List (HloOp τ sig (Elt F)) :=
  [ TRef.nullary (TRef.of (T := ⟨S_, .f32⟩) main_call0_cst) (constant S_ .f32 0xFF800000#32),
    TRef.binary (TRef.of (T := ⟨S8192x32000, .f32⟩) main_arg0) (TRef.of (T := ⟨S_, .f32⟩) main_call0_cst) (TRef.of (T := ⟨S8192, .f32⟩) main_call0_v0) (fun x v => gmax x v reducesTo_S8192x32000_S8192_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S8192, .f32⟩) main_call0_v1) (broadcastInDim S8192 ![] bcast_S_S8192),
    TRef.binary (TRef.of (T := ⟨S8192, .f32⟩) main_call0_v1) (TRef.of (T := ⟨S8192, .f32⟩) main_call0_v0) (TRef.of (T := ⟨S8192, .f32⟩) main_call0_v2) maximumf,
    TRef.unary (TRef.of (T := ⟨S8192, .f32⟩) main_call0_v2) (TRef.of (T := ⟨S8192x1, .f32⟩) main_call0_v3) (broadcastInDim S8192x1 ![0] bcast_S8192_S8192x1_0),
    TRef.unary (TRef.of (T := ⟨S8192x1, .f32⟩) main_call0_v3) (TRef.of (T := ⟨S8192x32000, .f32⟩) main_call0_v4) (broadcastInDim S8192x32000 ![0, 1] bcast_S8192x1_S8192x32000_0_1),
    TRef.binary (TRef.of (T := ⟨S8192x32000, .f32⟩) main_arg0) (TRef.of (T := ⟨S8192x32000, .f32⟩) main_call0_v4) (TRef.of (T := ⟨S8192x32000, .f32⟩) main_call0_v5) subf,
    TRef.unary (TRef.of (T := ⟨S8192x32000, .f32⟩) main_call0_v5) (TRef.of (T := ⟨S8192x32000, .f32⟩) main_call0_v6) Host.exp,
    TRef.nullary (TRef.of (T := ⟨S_, .f32⟩) main_call0_cst_1) (constant S_ .f32 0x00000000#32),
    TRef.binary (TRef.of (T := ⟨S8192x32000, .f32⟩) main_call0_v6) (TRef.of (T := ⟨S_, .f32⟩) main_call0_cst_1) (TRef.of (T := ⟨S8192, .f32⟩) main_call0_v7) (fun x v => gadd x v reducesTo_S8192x32000_S8192_d1 h_S_),
    TRef.unary (TRef.of (T := ⟨S8192, .f32⟩) main_call0_v7) (TRef.of (T := ⟨S8192x1, .f32⟩) main_call0_v8) (broadcastInDim S8192x1 ![0] bcast_S8192_S8192x1_0),
    TRef.unary (TRef.of (T := ⟨S8192x1, .f32⟩) main_call0_v8) (TRef.of (T := ⟨S8192x1, .f32⟩) main_call0_v9) Host.log,
    TRef.unary (TRef.of (T := ⟨S8192x1, .f32⟩) main_call0_v9) (TRef.of (T := ⟨S8192x32000, .f32⟩) main_call0_v10) (broadcastInDim S8192x32000 ![0, 1] bcast_S8192x1_S8192x32000_0_1),
    TRef.binary (TRef.of (T := ⟨S8192x32000, .f32⟩) main_call0_v5) (TRef.of (T := ⟨S8192x32000, .f32⟩) main_call0_v10) (TRef.of (T := ⟨S8192x32000, .f32⟩) main_v0) subf,
    unary main_arg1 main_v1 (broadcastInDim S8192x1 ![0] bcast_S8192_S8192x1_0 : (⟨S8192, .i32⟩ : BufTy).Contents (Elt F) → (⟨S8192x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S8192x1, .i32⟩) main_call1_v0) (broadcastInDim S8192x1 ![] bcast_S_S8192x1),
    TRef.binary (TRef.of (T := ⟨S8192x1, .i32⟩) main_v1) (TRef.of (T := ⟨S8192x1, .i32⟩) main_call1_v0) (TRef.of (T := ⟨S8192x1, .i1⟩) main_call1_v1) (cmpi .slt),
    TRef.nullary (TRef.of (T := ⟨S_, .i32⟩) main_call1_c_0) (constantI S_ 32 32000#32),
    TRef.unary (TRef.of (T := ⟨S_, .i32⟩) main_call1_c_0) (TRef.of (T := ⟨S8192x1, .i32⟩) main_call1_v2) (broadcastInDim S8192x1 ![] bcast_S_S8192x1),
    TRef.binary (TRef.of (T := ⟨S8192x1, .i32⟩) main_v1) (TRef.of (T := ⟨S8192x1, .i32⟩) main_call1_v2) (TRef.of (T := ⟨S8192x1, .i32⟩) main_call1_v3) addi,
    TRef.ternary (TRef.of (T := ⟨S8192x1, .i1⟩) main_call1_v1) (TRef.of (T := ⟨S8192x1, .i32⟩) main_call1_v3) (TRef.of (T := ⟨S8192x1, .i32⟩) main_v1) (TRef.of (T := ⟨S8192x1, .i32⟩) main_call1_v4) select,
    TRef.reshape (TRef.of (T := ⟨S8192x1, .i32⟩) main_call1_v4) (TRef.of (T := ⟨S8192x1x1, .i32⟩) main_call1_v5) rfl shapeCasts_S8192x1_S8192x1x1,
    TRef.nullary (TRef.of (T := ⟨S1, .i32⟩) main_call1_c_1) (constantI S1 32 31999#32),
    TRef.nullary (TRef.of (T := ⟨S_, .i32⟩) main_call1_c_2) (constantI S_ 32 0#32),
    TRef.unary (TRef.of (T := ⟨S_, .i32⟩) main_call1_c_2) (TRef.of (T := ⟨S8192x1x1, .i32⟩) main_call1_v6) (broadcastInDim S8192x1x1 ![] bcast_S_S8192x1x1),
    TRef.binary (TRef.of (T := ⟨S8192x1x1, .i32⟩) main_call1_v5) (TRef.of (T := ⟨S8192x1x1, .i32⟩) main_call1_v6) (TRef.of (T := ⟨S8192x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S8192x1x1, .i32⟩) main_call1_v9) (broadcastInDim S8192x1x1 ![0, 1, 2] bcast_S1x1x1_S8192x1x1_0_1_2),
    TRef.binary (TRef.of (T := ⟨S8192x1x1, .i32⟩) main_call1_v5) (TRef.of (T := ⟨S8192x1x1, .i32⟩) main_call1_v9) (TRef.of (T := ⟨S8192x1x1, .i1⟩) main_call1_v10) (cmpi .sle),
    TRef.binary (TRef.of (T := ⟨S8192x1x1, .i1⟩) main_call1_v7) (TRef.of (T := ⟨S8192x1x1, .i1⟩) main_call1_v10) (TRef.of (T := ⟨S8192x1x1, .i1⟩) main_call1_v11) andi,
    TRef.nullary (TRef.of (T := ⟨S_, .i1⟩) main_call1_c_3) (constantI S_ 1 1#1),
    TRef.binary (TRef.of (T := ⟨S8192x1x1, .i1⟩) main_call1_v11) (TRef.of (T := ⟨S_, .i1⟩) main_call1_c_3) (TRef.of (T := ⟨S8192x1, .i1⟩) main_call1_v12) (fun x v => gand x v reducesTo_S8192x1x1_S8192x1_d2 h_S_),
    TRef.binary (TRef.of (T := ⟨S8192x32000, .f32⟩) main_v0) (TRef.of (T := ⟨S8192x1x1, .i32⟩) main_call1_v5) (TRef.of (T := ⟨S8192x1, .f32⟩) main_call1_v13) (fun x i => ggat gather_S8192x32000_S8192x1x1_S8192x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S8192x1, .f32⟩) main_call1_v14) (broadcastInDim S8192x1 ![] bcast_S_S8192x1),
    TRef.ternary (TRef.of (T := ⟨S8192x1, .i1⟩) main_call1_v12) (TRef.of (T := ⟨S8192x1, .f32⟩) main_call1_v13) (TRef.of (T := ⟨S8192x1, .f32⟩) main_call1_v14) (TRef.of (T := ⟨S8192x1, .f32⟩) main_v2) select,
    reshape main_v2 main_v3 rfl shapeCasts_S8192x1_S8192,
    unary main_v3 main_v4 (Host.exp : (⟨S8192, .f32⟩ : BufTy).Contents (Elt F) → (⟨S8192, .f32⟩ : BufTy).Contents (Elt F)),
    nullary main_cst (constant S_ .f32 0x3F800000#32),
    unary main_cst main_v5 (broadcastInDim S8192 ![] bcast_S_S8192 : (⟨S_, .f32⟩ : BufTy).Contents (Elt F) → (⟨S8192, .f32⟩ : BufTy).Contents (Elt F)),
    binary main_v5 main_v4 main_v6 (subf : (⟨S8192, .f32⟩ : BufTy).Contents (Elt F) → (⟨S8192, .f32⟩ : BufTy).Contents (Elt F) → (⟨S8192, .f32⟩ : BufTy).Contents (Elt F)),
    binary main_v6 main_v6 main_v7 (mulf : (⟨S8192, .f32⟩ : BufTy).Contents (Elt F) → (⟨S8192, .f32⟩ : BufTy).Contents (Elt F) → (⟨S8192, .f32⟩ : BufTy).Contents (Elt F)),
    binary main_v7 main_v3 main_v8 (mulf : (⟨S8192, .f32⟩ : BufTy).Contents (Elt F) → (⟨S8192, .f32⟩ : BufTy).Contents (Elt F) → (⟨S8192, .f32⟩ : BufTy).Contents (Elt F)),
    nullary main_cst_0 (constant S_ .f32 0x00000000#32),
    binary main_v8 main_cst_0 main_v9 ((fun x v => gadd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_1 (constant S_ .f32 0x46000000#32),
    binary main_v9 main_cst_1 main_v10 (Host.divf : (⟨S_, .f32⟩ : BufTy).Contents (Elt F) → (⟨S_, .f32⟩ : BufTy).Contents (Elt F) → (⟨S_, .f32⟩ : BufTy).Contents (Elt F)),
    unary main_v10 main_v11 (Host.negf : (⟨S_, .f32⟩ : BufTy).Contents (Elt F) → (⟨S_, .f32⟩ : BufTy).Contents (Elt F)) ]

set_option maxRecDepth 8192 in
/-- The result's composed term of the arguments, over the four parameters. -/
def treeG (X : (⟨S8192x32000, .f32⟩ : BufTy).Contents (Elt F)) (L : (⟨S8192, .i32⟩ : BufTy).Contents (Elt F)) : (⟨S_, .f32⟩ : BufTy).Contents (Elt F) :=
  Host.negf (Host.divf (gadd (mulf (mulf (subf (broadcastInDim S8192 ![] bcast_S_S8192 (constant S_ .f32 0x3F800000#32)) (Host.exp (shapeCast _ (select (gand (andi (cmpi .sge (shapeCast _ (select (cmpi .slt (broadcastInDim S8192x1 ![0] bcast_S8192_S8192x1_0 L) (broadcastInDim S8192x1 ![] bcast_S_S8192x1 (constantI S_ 32 0#32))) (addi (broadcastInDim S8192x1 ![0] bcast_S8192_S8192x1_0 L) (broadcastInDim S8192x1 ![] bcast_S_S8192x1 (constantI S_ 32 32000#32))) (broadcastInDim S8192x1 ![0] bcast_S8192_S8192x1_0 L)) shapeCasts_S8192x1_S8192x1x1) (broadcastInDim S8192x1x1 ![] bcast_S_S8192x1x1 (constantI S_ 32 0#32))) (cmpi .sle (shapeCast _ (select (cmpi .slt (broadcastInDim S8192x1 ![0] bcast_S8192_S8192x1_0 L) (broadcastInDim S8192x1 ![] bcast_S_S8192x1 (constantI S_ 32 0#32))) (addi (broadcastInDim S8192x1 ![0] bcast_S8192_S8192x1_0 L) (broadcastInDim S8192x1 ![] bcast_S_S8192x1 (constantI S_ 32 32000#32))) (broadcastInDim S8192x1 ![0] bcast_S8192_S8192x1_0 L)) shapeCasts_S8192x1_S8192x1x1) (broadcastInDim S8192x1x1 ![0, 1, 2] bcast_S1x1x1_S8192x1x1_0_1_2 (broadcastInDim S1x1x1 ![2] bcast_S1_S1x1x1_2 (constantI S1 32 31999#32))))) (constantI S_ 1 1#1) reducesTo_S8192x1x1_S8192x1_d2 h_S_) (ggat gather_S8192x32000_S8192x1x1_S8192x1_n_1_0_0_1_2_11 (subf (subf X (broadcastInDim S8192x32000 ![0, 1] bcast_S8192x1_S8192x32000_0_1 (broadcastInDim S8192x1 ![0] bcast_S8192_S8192x1_0 (maximumf (broadcastInDim S8192 ![] bcast_S_S8192 (constant S_ .f32 0xFF800000#32)) (gmax X (constant S_ .f32 0xFF800000#32) reducesTo_S8192x32000_S8192_d1 h_S_))))) (broadcastInDim S8192x32000 ![0, 1] bcast_S8192x1_S8192x32000_0_1 (Host.log (broadcastInDim S8192x1 ![0] bcast_S8192_S8192x1_0 (gadd (Host.exp (subf X (broadcastInDim S8192x32000 ![0, 1] bcast_S8192x1_S8192x32000_0_1 (broadcastInDim S8192x1 ![0] bcast_S8192_S8192x1_0 (maximumf (broadcastInDim S8192 ![] bcast_S_S8192 (constant S_ .f32 0xFF800000#32)) (gmax X (constant S_ .f32 0xFF800000#32) reducesTo_S8192x32000_S8192_d1 h_S_)))))) (constant S_ .f32 0x00000000#32) reducesTo_S8192x32000_S8192_d1 h_S_))))) (shapeCast _ (select (cmpi .slt (broadcastInDim S8192x1 ![0] bcast_S8192_S8192x1_0 L) (broadcastInDim S8192x1 ![] bcast_S_S8192x1 (constantI S_ 32 0#32))) (addi (broadcastInDim S8192x1 ![0] bcast_S8192_S8192x1_0 L) (broadcastInDim S8192x1 ![] bcast_S_S8192x1 (constantI S_ 32 32000#32))) (broadcastInDim S8192x1 ![0] bcast_S8192_S8192x1_0 L)) shapeCasts_S8192x1_S8192x1x1)) (broadcastInDim S8192x1 ![] bcast_S_S8192x1 (constant S_ .f32 0x7FC00000#32))) shapeCasts_S8192x1_S8192))) (subf (broadcastInDim S8192 ![] bcast_S_S8192 (constant S_ .f32 0x3F800000#32)) (Host.exp (shapeCast _ (select (gand (andi (cmpi .sge (shapeCast _ (select (cmpi .slt (broadcastInDim S8192x1 ![0] bcast_S8192_S8192x1_0 L) (broadcastInDim S8192x1 ![] bcast_S_S8192x1 (constantI S_ 32 0#32))) (addi (broadcastInDim S8192x1 ![0] bcast_S8192_S8192x1_0 L) (broadcastInDim S8192x1 ![] bcast_S_S8192x1 (constantI S_ 32 32000#32))) (broadcastInDim S8192x1 ![0] bcast_S8192_S8192x1_0 L)) shapeCasts_S8192x1_S8192x1x1) (broadcastInDim S8192x1x1 ![] bcast_S_S8192x1x1 (constantI S_ 32 0#32))) (cmpi .sle (shapeCast _ (select (cmpi .slt (broadcastInDim S8192x1 ![0] bcast_S8192_S8192x1_0 L) (broadcastInDim S8192x1 ![] bcast_S_S8192x1 (constantI S_ 32 0#32))) (addi (broadcastInDim S8192x1 ![0] bcast_S8192_S8192x1_0 L) (broadcastInDim S8192x1 ![] bcast_S_S8192x1 (constantI S_ 32 32000#32))) (broadcastInDim S8192x1 ![0] bcast_S8192_S8192x1_0 L)) shapeCasts_S8192x1_S8192x1x1) (broadcastInDim S8192x1x1 ![0, 1, 2] bcast_S1x1x1_S8192x1x1_0_1_2 (broadcastInDim S1x1x1 ![2] bcast_S1_S1x1x1_2 (constantI S1 32 31999#32))))) (constantI S_ 1 1#1) reducesTo_S8192x1x1_S8192x1_d2 h_S_) (ggat gather_S8192x32000_S8192x1x1_S8192x1_n_1_0_0_1_2_11 (subf (subf X (broadcastInDim S8192x32000 ![0, 1] bcast_S8192x1_S8192x32000_0_1 (broadcastInDim S8192x1 ![0] bcast_S8192_S8192x1_0 (maximumf (broadcastInDim S8192 ![] bcast_S_S8192 (constant S_ .f32 0xFF800000#32)) (gmax X (constant S_ .f32 0xFF800000#32) reducesTo_S8192x32000_S8192_d1 h_S_))))) (broadcastInDim S8192x32000 ![0, 1] bcast_S8192x1_S8192x32000_0_1 (Host.log (broadcastInDim S8192x1 ![0] bcast_S8192_S8192x1_0 (gadd (Host.exp (subf X (broadcastInDim S8192x32000 ![0, 1] bcast_S8192x1_S8192x32000_0_1 (broadcastInDim S8192x1 ![0] bcast_S8192_S8192x1_0 (maximumf (broadcastInDim S8192 ![] bcast_S_S8192 (constant S_ .f32 0xFF800000#32)) (gmax X (constant S_ .f32 0xFF800000#32) reducesTo_S8192x32000_S8192_d1 h_S_)))))) (constant S_ .f32 0x00000000#32) reducesTo_S8192x32000_S8192_d1 h_S_))))) (shapeCast _ (select (cmpi .slt (broadcastInDim S8192x1 ![0] bcast_S8192_S8192x1_0 L) (broadcastInDim S8192x1 ![] bcast_S_S8192x1 (constantI S_ 32 0#32))) (addi (broadcastInDim S8192x1 ![0] bcast_S8192_S8192x1_0 L) (broadcastInDim S8192x1 ![] bcast_S_S8192x1 (constantI S_ 32 32000#32))) (broadcastInDim S8192x1 ![0] bcast_S8192_S8192x1_0 L)) shapeCasts_S8192x1_S8192x1x1)) (broadcastInDim S8192x1 ![] bcast_S_S8192x1 (constant S_ .f32 0x7FC00000#32))) shapeCasts_S8192x1_S8192)))) (shapeCast _ (select (gand (andi (cmpi .sge (shapeCast _ (select (cmpi .slt (broadcastInDim S8192x1 ![0] bcast_S8192_S8192x1_0 L) (broadcastInDim S8192x1 ![] bcast_S_S8192x1 (constantI S_ 32 0#32))) (addi (broadcastInDim S8192x1 ![0] bcast_S8192_S8192x1_0 L) (broadcastInDim S8192x1 ![] bcast_S_S8192x1 (constantI S_ 32 32000#32))) (broadcastInDim S8192x1 ![0] bcast_S8192_S8192x1_0 L)) shapeCasts_S8192x1_S8192x1x1) (broadcastInDim S8192x1x1 ![] bcast_S_S8192x1x1 (constantI S_ 32 0#32))) (cmpi .sle (shapeCast _ (select (cmpi .slt (broadcastInDim S8192x1 ![0] bcast_S8192_S8192x1_0 L) (broadcastInDim S8192x1 ![] bcast_S_S8192x1 (constantI S_ 32 0#32))) (addi (broadcastInDim S8192x1 ![0] bcast_S8192_S8192x1_0 L) (broadcastInDim S8192x1 ![] bcast_S_S8192x1 (constantI S_ 32 32000#32))) (broadcastInDim S8192x1 ![0] bcast_S8192_S8192x1_0 L)) shapeCasts_S8192x1_S8192x1x1) (broadcastInDim S8192x1x1 ![0, 1, 2] bcast_S1x1x1_S8192x1x1_0_1_2 (broadcastInDim S1x1x1 ![2] bcast_S1_S1x1x1_2 (constantI S1 32 31999#32))))) (constantI S_ 1 1#1) reducesTo_S8192x1x1_S8192x1_d2 h_S_) (ggat gather_S8192x32000_S8192x1x1_S8192x1_n_1_0_0_1_2_11 (subf (subf X (broadcastInDim S8192x32000 ![0, 1] bcast_S8192x1_S8192x32000_0_1 (broadcastInDim S8192x1 ![0] bcast_S8192_S8192x1_0 (maximumf (broadcastInDim S8192 ![] bcast_S_S8192 (constant S_ .f32 0xFF800000#32)) (gmax X (constant S_ .f32 0xFF800000#32) reducesTo_S8192x32000_S8192_d1 h_S_))))) (broadcastInDim S8192x32000 ![0, 1] bcast_S8192x1_S8192x32000_0_1 (Host.log (broadcastInDim S8192x1 ![0] bcast_S8192_S8192x1_0 (gadd (Host.exp (subf X (broadcastInDim S8192x32000 ![0, 1] bcast_S8192x1_S8192x32000_0_1 (broadcastInDim S8192x1 ![0] bcast_S8192_S8192x1_0 (maximumf (broadcastInDim S8192 ![] bcast_S_S8192 (constant S_ .f32 0xFF800000#32)) (gmax X (constant S_ .f32 0xFF800000#32) reducesTo_S8192x32000_S8192_d1 h_S_)))))) (constant S_ .f32 0x00000000#32) reducesTo_S8192x32000_S8192_d1 h_S_))))) (shapeCast _ (select (cmpi .slt (broadcastInDim S8192x1 ![0] bcast_S8192_S8192x1_0 L) (broadcastInDim S8192x1 ![] bcast_S_S8192x1 (constantI S_ 32 0#32))) (addi (broadcastInDim S8192x1 ![0] bcast_S8192_S8192x1_0 L) (broadcastInDim S8192x1 ![] bcast_S_S8192x1 (constantI S_ 32 32000#32))) (broadcastInDim S8192x1 ![0] bcast_S8192_S8192x1_0 L)) shapeCasts_S8192x1_S8192x1x1)) (broadcastInDim S8192x1 ![] bcast_S_S8192x1 (constant S_ .f32 0x7FC00000#32))) shapeCasts_S8192x1_S8192)) (constant S_ .f32 0x00000000#32) reducesTo_S8192_S_d0 h_S_) (constant S_ .f32 0x46000000#32))

set_option maxRecDepth 8192 in
set_option maxHeartbeats 2000000 in
/-- After the operations the result buffer holds the composed term of what the argument buffers held. -/
theorem afterG (V : Valuation τ sig (Elt F)) :
    after (opsG gmax gadd gand ggat) V (Proc.devRef .tc main_v11)
      = treeG gmax gadd gand ggat (V (Proc.devRef .tc main_arg0)) (V (Proc.devRef .tc main_arg1)) := by
  after_results_simp <;> (try simp only [TRef.ofBuf, TRef.toBuf, cast_eq]) <;> (unfold treeG; rfl)

end Abstract

/-- The four heavy host functions (the row maximum, the float sums, the `and` over a unit axis, the gather), to put in the
    parameters' places. -/
abbrev gmax₀ : (⟨S8192x32000, .f32⟩ : BufTy).Contents (Elt F) → (⟨S_, .f32⟩ : BufTy).Contents (Elt F) → S8192x32000.ReducesTo [1] S8192 → 0 < S_.numel → (⟨S8192, .f32⟩ : BufTy).Contents (Elt F) :=
  fun x v p q => Host.reduce FloatOps.maximumf x v p q
abbrev gadd₀ : ∀ {s t : Shape} {axes : List (Fin s.rank)}, FVec F s .f32 → FVec F S_ .f32 → s.ReducesTo axes t → 0 < S_.numel → FVec F t .f32 :=
  fun x v p q => Host.reduceAdd x v p q
abbrev gand₀ : (⟨S8192x1x1, .i1⟩ : BufTy).Contents (Elt F) → (⟨S_, .i1⟩ : BufTy).Contents (Elt F) → S8192x1x1.ReducesTo [2] S8192x1 → 0 < S_.numel → (⟨S8192x1, .i1⟩ : BufTy).Contents (Elt F) :=
  fun x v p q => Host.reduce IntOp.andi x v p q
abbrev ggat₀ : GatherDims S8192x32000 S8192x1x1 S8192x1 → (⟨S8192x32000, .f32⟩ : BufTy).Contents (Elt F) → (⟨S8192x1x1, .i32⟩ : BufTy).Contents (Elt F) → (⟨S8192x1, .f32⟩ : BufTy).Contents (Elt F) :=
  fun d x i => Host.gather d x i

set_option maxRecDepth 8192 in
/-- At the four functions the list is the program's. -/
theorem ops_eq : (ops : List (HloOp τ sig (Elt F))) = opsG (F := F) gmax₀ gadd₀ gand₀ ggat₀ := rfl

set_option maxRecDepth 8192 in
/-- And the composed term is the last stage. -/
theorem tree_eq_val (X : (⟨S8192x32000, .f32⟩ : BufTy).Contents (Elt F)) (L : (⟨S8192, .i32⟩ : BufTy).Contents (Elt F)) :
    treeG (F := F) gmax₀ gadd₀ gand₀ ggat₀ X L = val_main_v11 (F := F) X L := by
  unfold treeG; rfl

set_option maxRecDepth 8192 in
set_option maxHeartbeats 2000000 in
/-- On every device, from any memory with zero counters: every weakly fair execution of the reference terminates with the
    result at the last stage of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11)
          = val_main_v11 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v11).trans (by rw [ops_eq, afterG]; exact tree_eq_val _ _),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RefRun

end
-- ==== Proof.RefValue.lean ====
/-
  The reference's last stage, at the extended reals, is the loss: row by row the log-softmax read at the label, then the
  mean of the rows' terms, negated.
-/
import proofs.«402658_j15461882265978_3_alg».proof.Proof.RefRead
import proofs.«402658_j15461882265978_3_alg».proof.Proof.Spec
import Idealize.ShloMosaic.Lib.ValueIdx
import Idealize.ShloMosaic.Lib.ValueIdxRank1
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx
open Cert.ReferenceIdeal.ReadP

/-! ### Words: a column number is a nonnegative signed word -/

private theorem toInt_of_lt {w : BitVec 32} (h : w.toNat < 32000) : w.toInt = (w.toNat : Int) :=
  BitVec.toInt_eq_toNat_of_lt (by omega)

private theorem slt_zero_of_lt {w : BitVec 32} (h : w.toNat < 32000) : IntOp.cmpi .slt w 0#32 = 0#1 := by
  have h1 : w.slt 0#32 = false := by
    rw [BitVec.slt_eq_decide, toInt_of_lt h, BitVec.toInt_zero]
    exact decide_eq_false (by omega)
  show BitVec.ofBool (w.slt 0#32) = 0#1
  rw [h1]; rfl

private theorem sge_zero_of_lt {w : BitVec 32} (h : w.toNat < 32000) : IntOp.cmpi .sge w 0#32 = 1#1 := by
  have h1 : (0#32 : BitVec 32).sle w = true := by
    rw [BitVec.sle_eq_decide, toInt_of_lt h, BitVec.toInt_zero]
    exact decide_eq_true (by omega)
  show BitVec.ofBool ((0#32 : BitVec 32).sle w) = 1#1
  rw [h1]; rfl

private theorem sle_last_of_lt {w : BitVec 32} (h : w.toNat < 32000) : IntOp.cmpi .sle w 31999#32 = 1#1 := by
  have h2 : (31999#32 : BitVec 32).toInt = 31999 := by decide
  have h1 : w.sle 31999#32 = true := by
    rw [BitVec.sle_eq_decide, toInt_of_lt h, h2]
    exact decide_eq_true (by omega)
  show BitVec.ofBool (w.sle 31999#32) = 1#1
  rw [h1]; rfl

private theorem toInt_toNat_of_lt {w : BitVec 32} (h : w.toNat < 32000) : w.toInt.toNat = w.toNat := by
  rw [toInt_of_lt h]; rfl

/-- An and-fold of ones from one is one. -/
private theorem foldl_andi_one {ι : Type} (x : ι → BitVec 1) (hx : ∀ i, x i = 1#1) (l : List ι) :
    l.foldl (fun r i => IntOp.andi r (x i)) 1#1 = 1#1 := by
  induction l with
  | nil => rfl
  | cons a l ih =>
    have h11 : IntOp.andi (1#1 : BitVec 1) 1#1 = 1#1 := by decide
    rw [List.foldl_cons, hx a, h11]; exact ih

/-! ### The label column -/

section Label
variable (L : (⟨S8192, .i32⟩ : BufTy).Contents (Elt Ideal)) (hL : ∀ R : Fin 8192, (L (ix1 R)).toNat < 32000)
include hL

/-- The wrapped label is the label: a column number is not negative. -/
private theorem label_apply (R : Fin 8192) (b : Fin 1) : val_main_call1_v4 (F := Ideal) L (ix2 R b) = L (ix1 R) := by
  have hi : idx_main_v1 (ix2 R b) = ix1 R := by funext d; match d with | ⟨0, _⟩ => rfl
  rw [val_main_call1_v4_apply, val_main_call1_v1_apply, val_main_v1_apply, val_main_call1_v0_apply, val_main_call1_c_apply, hi,
    slt_zero_of_lt (hL R), select_zero]

/-- … and so is the label the gather reads. -/
private theorem label3_apply (R : Fin 8192) (b c : Fin 1) : val_main_call1_v5 (F := Ideal) L (ix3 R b c) = L (ix1 R) := by
  have hi : idx_main_call1_v5 (ix3 R b c) = ix2 R (0 : Fin 1) := by
    funext d
    match d with
    | ⟨0, _⟩ =>
      refine Fin.ext ?_
      have hb := b.isLt; have hc := c.isLt
      show ((R.val * 1 + b.val) * 1 + c.val) / 1 = R.val
      omega
    | ⟨1, _⟩ => rfl
  rw [val_main_call1_v5_apply, hi, label_apply L hL]

/-- Every label is in range: the range test passes everywhere. -/
private theorem inrange_apply (i : S8192x1x1.Idx) : val_main_call1_v11 (F := Ideal) L i = 1#1 := by
  obtain ⟨R, b, c, rfl⟩ : ∃ (R : Fin 8192) (b c : Fin 1), i = ix3 R b c := ⟨i 0, i 1, i 2, eq_ix3 i⟩
  rw [val_main_call1_v11_apply, val_main_call1_v7_apply, val_main_call1_v10_apply, label3_apply L hL,
    val_main_call1_v6_apply, val_main_call1_c_2_apply, val_main_call1_v9_apply, val_main_call1_v8_apply, val_main_call1_c_1_apply,
    sge_zero_of_lt (hL R), sle_last_of_lt (hL R)]
  rfl

/-- The and-reduction of the range test over its unit axis. -/
private theorem valid_apply (j : S8192x1.Idx) : val_main_call1_v12 (F := Ideal) L j = 1#1 := by
  unfold val_main_call1_v12
  rw [Host.reduce_eq_foldl]
  exact foldl_andi_one _ (inrange_apply L hL) _

end Label

/-! ### The gather: row R of the operand at the start index of row R -/

private abbrev gd := gather_S8192x32000_S8192x1x1_S8192x1_n_1_0_0_1_2_11

private theorem gather_apply {α : Type} (x : S8192x32000.Idx → α) (idx : IVec S8192x1x1 32) (R : Fin 8192) :
    Host.gather gd x idx (ix2 R (0 : Fin 1))
      = x (ix2 R (⟨min (idx (ix3 R (0 : Fin 1) (0 : Fin 1))).toInt.toNat 31999, by omega⟩ : Fin 32000)) := by
  unfold Host.gather
  congr 1
  funext a
  refine Fin.ext ?_
  match a with
  | ⟨0, h0⟩ =>
    show gd.start (ix2 R (0 : Fin 1)) idx (0 : Fin 2) + gd.batchCoord (ix2 R (0 : Fin 1)) (0 : Fin 2) + gd.offCoord (ix2 R (0 : Fin 1)) (0 : Fin 2) = R.val
    have hb : (0 : Fin 2) ∈ gd.operandBatchingDims := List.mem_singleton.mpr rfl
    rw [GatherDims.start_batching _ _ _ _ hb,
      GatherDims.offCoord_eq_zero _ _ _ (fun h => ((GatherDims.mem_sKept _ _).mp h).2 hb), Nat.zero_add, Nat.add_zero]
    rfl
  | ⟨1, h1⟩ =>
    show gd.start (ix2 R (0 : Fin 1)) idx (1 : Fin 2) + gd.batchCoord (ix2 R (0 : Fin 1)) (1 : Fin 2) + gd.offCoord (ix2 R (0 : Fin 1)) (1 : Fin 2) = min (idx (ix3 R (0 : Fin 1) (0 : Fin 1))).toInt.toNat 31999
    have hnb : (1 : Fin 2) ∉ gd.operandBatchingDims := by decide
    have hc : (1 : Fin 2) ∈ gd.collapsedSliceDims := List.mem_singleton.mpr rfl
    rw [GatherDims.batchCoord_eq_zero _ _ _ hnb,
      GatherDims.offCoord_eq_zero _ _ _ (fun h => ((GatherDims.mem_sKept _ _).mp h).1 hc), Nat.add_zero]
    unfold GatherDims.start
    rw [dif_pos (show (1 : Fin 2) ∈ gd.startIndexMap from List.mem_singleton.mpr rfl)]
    have hsi : gd.siIdx (ix2 R (0 : Fin 1)) ⟨List.idxOf (1 : Fin 2) gd.startIndexMap,
        List.idxOf_lt_length_iff.2 (List.mem_singleton.mpr rfl)⟩ = ix3 R (0 : Fin 1) (0 : Fin 1) := by
      funext b; refine Fin.ext ?_
      match b with
      | ⟨0, _⟩ => rfl
      | ⟨1, _⟩ => rfl
      | ⟨2, _⟩ => rfl
    rw [hsi]
    rfl

/-! ### The log-softmax of a row -/

/-- The f32 word of minus infinity is the bottom element. -/
private theorem ofBits_neg_inf : Ideal.ofBits .f32 0xFF800000#32 = (⊥ : EReal) := by simp [Ideal.ofBits, Ideal.ieee]

/-- From minus infinity, the max-reduction of a matrix along its rows is, at row R, the supremum of the row. -/
private theorem reduce_max_row (x : FVec Ideal S8192x32000 .f32) (R : Fin 8192) :
    Host.reduce FloatOps.maximumf x (constant (F := Ideal) S_ .f32 0xFF800000#32) reducesTo_S8192x32000_S8192_d1 h_S_ (ix1 R)
      = Finset.univ.sup fun k : Fin 32000 => x (ix2 R k) := by
  have hred : S8192x32000.Reduces [1] S8192 := by decide
  rw [Host.reduce_eq_fold_single FloatOps.maximumf x _ reducesTo_S8192x32000_S8192_d1 hred h_S_ (ix1 R)]
  have hf : (x ∘ hred.lift (ix1 R)) = fun k : Fin 32000 => x (ix2 R k) := by
    funext k
    exact congrArg x (funext fun a => Fin.ext (by match a with | ⟨0, _⟩ => rfl | ⟨1, _⟩ => rfl))
  rw [hf]
  show Finset.univ.fold max (Ideal.ofBits .f32 0xFF800000#32) (fun k : Fin 32000 => x (ix2 R k)) = _
  rw [ofBits_neg_inf]
  rfl

section Rows
variable (X : (⟨S8192x32000, .f32⟩ : BufTy).Contents (Elt Ideal))

/-- The max-reduction along a row is the row's supremum. -/
private theorem rowmax0_apply (R : Fin 8192) :
    val_main_call0_v0 (F := Ideal) X (ix1 R) = Cert.Focal.rowMax (Cert.Focal.row X R) :=
  reduce_max_row X R

/-- … and the maximum with minus infinity changes nothing. -/
private theorem rowmax_apply (R : Fin 8192) :
    val_main_call0_v2 (F := Ideal) X (ix1 R) = Cert.Focal.rowMax (Cert.Focal.row X R) := by
  rw [val_main_call0_v2_apply, val_main_call0_v1_apply, val_main_call0_cst_0_apply, rowmax0_apply]
  show max (Ideal.ofBits .f32 0xFF800000#32) _ = _
  rw [ofBits_neg_inf]
  exact max_eq_right bot_le

/-- The row maximum, broadcast back over the row. -/
private theorem rowmaxB_apply (R : Fin 8192) (k : Fin 32000) :
    val_main_call0_v4 (F := Ideal) X (ix2 R k) = Cert.Focal.rowMax (Cert.Focal.row X R) := by
  have h4 : idx_main_call0_v4 (ix2 R k) = ix2 R (0 : Fin 1) := by
    funext d; match d with | ⟨0, _⟩ => rfl | ⟨1, _⟩ => rfl
  have h3 : idx_main_call0_v3 (ix2 R (0 : Fin 1)) = ix1 R := by
    funext d; match d with | ⟨0, _⟩ => rfl
  rw [val_main_call0_v4_apply, h4, val_main_call0_v3_apply, h3, rowmax_apply]

/-- The shifted logit. -/
private theorem shifted_apply (R : Fin 8192) (k : Fin 32000) :
    val_main_call0_v5 (F := Ideal) X (ix2 R k) = X (ix2 R k) - Cert.Focal.rowMax (Cert.Focal.row X R) := by
  rw [val_main_call0_v5_apply, rowmaxB_apply]
  rfl

/-- The sum of the exponentials along a row. -/
private theorem rowsum_apply (R : Fin 8192) :
    val_main_call0_v7 (F := Ideal) X (ix1 R) = Cert.Focal.rowSumExp (Cert.Focal.row X R) := by
  rw [val_main_call0_v7_apply, val_main_call0_cst_1_apply]
  show Ideal.ofBits .f32 0x00000000#32 + _ = _
  rw [Ideal.ofBits_zero_f32, zero_add]
  refine Finset.sum_congr rfl fun k _ => ?_
  have h7 : idx_main_call0_v7 (ix1 R) k = ix2 R k := by
    funext d; match d with | ⟨0, _⟩ => rfl | ⟨1, _⟩ => rfl
  rw [h7, val_main_call0_v6_apply, shifted_apply]
  rfl

/-- Its logarithm, broadcast back over the row. -/
private theorem logsum_apply (R : Fin 8192) (k : Fin 32000) :
    val_main_call0_v10 (F := Ideal) X (ix2 R k) = Ideal.log (Cert.Focal.rowSumExp (Cert.Focal.row X R)) := by
  have h10 : idx_main_call0_v10 (ix2 R k) = ix2 R (0 : Fin 1) := by
    funext d; match d with | ⟨0, _⟩ => rfl | ⟨1, _⟩ => rfl
  have h8 : idx_main_call0_v8 (ix2 R (0 : Fin 1)) = ix1 R := by
    funext d; match d with | ⟨0, _⟩ => rfl
  rw [val_main_call0_v10_apply, h10, val_main_call0_v9_apply, val_main_call0_v8_apply, h8, rowsum_apply]
  exact Ideal.hostUnary_log_def _

/-- The log-softmax at (R, k). -/
private theorem logsoftmax_apply (R : Fin 8192) (k : Fin 32000) :
    val_main_v0 (F := Ideal) X (ix2 R k) = Cert.Focal.logp (Cert.Focal.row X R) k := by
  rw [val_main_v0_apply, shifted_apply, logsum_apply]
  rfl

end Rows

/-! ### The rows' terms and the loss -/

section Loss
variable (X : (⟨S8192x32000, .f32⟩ : BufTy).Contents (Elt Ideal)) (L : (⟨S8192, .i32⟩ : BufTy).Contents (Elt Ideal))
  (hL : ∀ R : Fin 8192, (L (ix1 R)).toNat < 32000)
include hL

/-- The log-softmax of row R read at its label. -/
private theorem picked_apply (R : Fin 8192) :
    val_main_v3 (F := Ideal) X L (ix1 R) = Cert.Focal.logp (Cert.Focal.row X R) (Cert.Focal.col (L (ix1 R))) := by
  have h3 : idx_main_v3 (ix1 R) = ix2 R (0 : Fin 1) := by
    funext d
    match d with
    | ⟨0, _⟩ => exact Fin.ext (Nat.div_one R.val)
    | ⟨1, _⟩ => rfl
  have hcol : (⟨min (val_main_call1_v5 (F := Ideal) L (ix3 R (0 : Fin 1) (0 : Fin 1))).toInt.toNat 31999, by omega⟩ : Fin 32000)
      = Cert.Focal.col (L (ix1 R)) := by
    refine Fin.ext ?_
    have h := hL R
    show min (val_main_call1_v5 (F := Ideal) L (ix3 R (0 : Fin 1) (0 : Fin 1))).toInt.toNat 31999 = (L (ix1 R)).toNat % 32000
    rw [label3_apply L hL, toInt_toNat_of_lt h, Nat.mod_eq_of_lt h]
    omega
  rw [val_main_v3_apply, h3, val_main_v2_apply, valid_apply L hL, select_one]
  unfold val_main_call1_v13
  rw [gather_apply, hcol, logsoftmax_apply]

/-- Row R's term of the loss. -/
private theorem term_apply (R : Fin 8192) :
    val_main_v8 (F := Ideal) X L (ix1 R) = Cert.Focal.term (Cert.Focal.row X R) (Cert.Focal.col (L (ix1 R))) := by
  rw [val_main_v8_apply, val_main_v7_apply, val_main_v6_apply, val_main_v5_apply, val_main_cst_apply, val_main_v4_apply,
    picked_apply X L hL]
  rfl

end Loss

/-- Where every label is a column number, the reference's last stage is the loss. -/
theorem val_eq_loss (X : (⟨S8192x32000, .f32⟩ : BufTy).Contents (Elt Ideal)) (L : (⟨S8192, .i32⟩ : BufTy).Contents (Elt Ideal))
    (hL : ∀ R : Fin 8192, (L (ix1 R)).toNat < 32000) :
    val_main_v11 (F := Ideal) X L = Cert.Focal.loss X L := by
  funext i
  have hsum : ∑ j : S8192.Idx, val_main_v8 (F := Ideal) X L j = Cert.Focal.total X L := by
    rw [← Equiv.sum_comp (idxEquiv1 (n := 8192)).symm (fun j : S8192.Idx => val_main_v8 (F := Ideal) X L j)]
    exact Finset.sum_congr rfl fun R _ => term_apply X L hL R
  rw [val_main_v11_apply, val_main_v10_apply, val_main_v9_apply, val_main_cst_0_apply, val_main_cst_1_apply, hsum]
  show -(Ideal.div (Ideal.ofBits .f32 0x00000000#32 + Cert.Focal.total X L) (Ideal.ofBits .f32 0x46000000#32)) = _
  rw [Ideal.ofBits_zero_f32, zero_add]
  rfl

end Cert.ReferenceIdeal.RefValue

end
-- ==== Proof.PreDecode.lean ====
/-
  What the precondition says of the labels: every label word is a column number, 0 ≤ label < 32000.
-/
import proofs.«402658_j15461882265978_3_alg».proof.Pre_finite_inputs
import proofs.«402658_j15461882265978_3_alg».proof.Proof.Gen.Pre_finite_inputs
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx

variable {F : FTy → Type} [FloatOps F]

/-- The scalar shape has one index: a function out of the empty set of axes. -/
private instance scalarIdxSubsingleton : Subsingleton Cert.Pre_finite_inputs.S_.Idx :=
  ⟨fun a b => funext fun d => d.elim0⟩

/-- A 32-bit word that reads, signed, at least 0 and below 32000 reads the same unsigned: its top bit is clear, so the
    signed and the unsigned readings agree, and the unsigned one is below 32000. -/
private theorem toNat_lt_of_signed {a : BitVec 32} (h0 : (0#32 : BitVec 32).toInt ≤ a.toInt)
    (h1 : a.toInt < (32000#32 : BitVec 32).toInt) : a.toNat < 32000 := by
  rw [show (0#32 : BitVec 32).toInt = 0 from by decide] at h0
  rw [show (32000#32 : BitVec 32).toInt = 32000 from by decide] at h1
  have hc := BitVec.toInt_eq_toNat_cond a
  split at hc <;> omega

/-- Where the printed precondition is all ones, every label, read as a natural number, is below 32000 (it is at least
    zero and below 32000 as a signed word). -/
theorem labels_lt (X : FVec F Cert.Pre_finite_inputs.S8192x32000 .f32) (L : IVec Cert.Pre_finite_inputs.S8192 32)
    (h : Cert.Pre_finite_inputs.fn (F := F) X L = fun _ => 1#1) (R : Fin 8192) : (L (ix1 R)).toNat < 32000 := by
  -- the predicate at its one index: the conjunction of the two `all`s is 1
  have h0 := congrFun h ValueIdx.ix0
  dsimp only [Cert.Pre_finite_inputs.fn] at h0
  -- its second conjunct: the `all` over the labels' range test is 1
  have h1 := (IntOp.andi_eq_one.1 h0).2
  -- so the range test is 1 at every row, in particular at R
  have h2 := Host.reduce_andi_all _ _ _ _ _ h1 (ix1 R)
  -- the test at R is (label ≥ 0) and (label < 32000), both signed, against broadcast scalars
  obtain ⟨hge, hlt⟩ := IntOp.andi_eq_one.1 h2
  exact toNat_lt_of_signed (IntOp.cmpi_sge.1 hge) (IntOp.cmpi_slt.1 hlt)

end Cert.PreDecode

end
-- ==== Proof.lean ====
/-
  The claim: the Pallas focal-loss kernel against jnp's reference, over the extended reals.

  Both programs compute, for logits x[8192, 32000] and labels l[8192],
      - (1/8192) · Σ_R (1 - p_R)² · log p_R,   log p_R = (x[R, l_R] - max_k x[R, k]) - log Σ_k exp (x[R, k] - max_k x[R, k]).
  The kernel streams each block of 128 rows in 25 chunks of 1280 lanes (a running row maximum, then a running sum of
  exponentials and a one-hot-selected shifted logit), sums the block's 128 terms and adds the sum into one lane of a
  per-core-half accumulator tile over 32 grid points; the host sums the tiles, negates and divides. The reference takes the
  log-softmax of the whole array, gathers each row's entry at its label, and takes the mean. Over the extended reals the
  chunked maxima and sums are the whole-row maximum and sum (associativity and commutativity only), the one-hot sum is the
  entry at the label when the label is a column number, and (-s)/8192 = -(s/8192).
  The precondition: the logits finite and every label a column number, 0 ≤ label < 32000 (outside it the reference's gather
  wraps a negative label or fills with NaN, and the kernel's one-hot selects nothing).
-/
import proofs.«402658_j15461882265978_3_alg».proof.Defs
import proofs.«402658_j15461882265978_3_alg».proof.Proof.Gen.Kernel
import proofs.«402658_j15461882265978_3_alg».proof.Proof.Gen.Kernel.Frame
import proofs.«402658_j15461882265978_3_alg».proof.Proof.Gen.KernelIdeal
import proofs.«402658_j15461882265978_3_alg».proof.Proof.Gen.KernelIdeal.Frame
import proofs.«402658_j15461882265978_3_alg».proof.Proof.Gen.ReferenceIdeal
import proofs.«402658_j15461882265978_3_alg».proof.Proof.Gen.Pre_finite_inputs
import proofs.«402658_j15461882265978_3_alg».proof.Proof.GridValue
import proofs.«402658_j15461882265978_3_alg».proof.Proof.RefRun
import proofs.«402658_j15461882265978_3_alg».proof.Proof.RefValue
import proofs.«402658_j15461882265978_3_alg».proof.Proof.PreDecode
import Idealize.ShloMosaic.Adequacy
import Idealize.ShloMosaic.Init

noncomputable section

namespace Cert.Proof

open Idealize.ShloMosaic Idealize.SL.Sem Idealize.ShloMosaic.ValueIdx

/-- The word-level kernel runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- Both programs end at the loss of the argument arrays: the kernel by its run read through the accumulator tiles, the
    reference by its stages read at an index; the labels are column numbers by the precondition. -/
theorem algebraic : Cert.algebraic_KernelIdeal_ReferenceIdeal := by
  intro m ρ m' ρ' hpre hagree
  have hL : ∀ (c : Dev Cert.KernelIdeal.nD) (R : Fin 8192),
      (m ((c.tc : Thread Cert.KernelIdeal.nD Cert.KernelIdeal.τ).loc Cert.KernelIdeal.main_arg1) (ix1 R)).toNat < 32000 :=
    fun c R => Cert.PreDecode.labels_lt (F := Ideal) _ _ (hpre c) R
  refine ⟨fun c => Cert.Focal.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.GridValue.run m ρ hL, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefValue.val_eq_loss _ _ (hL c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
